-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S8x16x4096 : Shape := ⟨3, ![8, 16, 4096]⟩
abbrev S8x4096x16 : Shape := ⟨3, ![8, 4096, 16]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S8x4096x16 : S_.BroadcastsInDim S8x4096x16 (![] : Fin 0 → Fin S8x4096x16.rank)
  reducesTo_S8x4096x16_S_d0_1_2 : S8x4096x16.ReducesTo [0, 1, 2] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8x4096x16 .f32) (main_arg5 : FVec F S8192 .f32) (main_v13 : IVec S_ 1) (main_v16 : IVec S8x16x4096 1) : IVec S_ 1 :=
  let main_c_5 : IVec S_ 1 := constantI S_ 1 1#1
  let main_v17 : IVec S_ 1 := (fun x v => Host.reduce IntOp.andi x v reducesTo_S8x16x4096_S_d0_1_2 h_S_) main_v16 main_c_5
  let main_v18 : IVec S_ 1 := andi main_v13 main_v17
  let main_v19 : FVec F S8x4096x16 .f32 := Host.absf main_arg4
  let main_cst_6 : FVec F S_ .f32 := constant S_ .f32 0x7F800000#32
  let main_v20 : FVec F S8x4096x16 .f32 := broadcastInDim S8x4096x16 ![] bcast_S_S8x4096x16 main_cst_6
  let main_v21 : IVec S8x4096x16 1 := cmpf .olt main_v19 main_v20
  let main_c_7 : IVec S_ 1 := constantI S_ 1 1#1
  let main_v22 : IVec S_ 1 := (fun x v => Host.reduce IntOp.andi x v reducesTo_S8x4096x16_S_d0_1_2 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S8192x4096 .f32) (main_arg1 : FVec F S4096x4096 .f32) (main_arg2 : FVec F S4096 .f32) (main_arg3 : FVec F S8x16x4096 .f32) (main_arg4 : FVec F S8x4096x16 .f32) (main_arg5 : FVec F S8192 .f32) (main_arg6 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x16x4096 .f32 := Host.absf main_arg3
  let main_cst_4 : FVec F S_ .f32 := constant S_ .f32 0x7F800000#32
  let main_v15 : FVec F S8x16x4096 .f32 := broadcastInDim S8x16x4096 ![] bcast_S_S8x16x4096 main_cst_4
  let main_v16 : IVec S8x16x4096 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S8x16x4096 : Shape := ⟨3, ![8, 16, 4096]⟩
abbrev S8x4096x16 : Shape := ⟨3, ![8, 4096, 16]⟩
abbrev S8192 : Shape := ⟨1, ![8192]⟩
abbrev S4096x8x16 : Shape := ⟨3, ![4096, 8, 16]⟩
abbrev S4096x128 : Shape := ⟨2, ![4096, 128]⟩
abbrev S128x4096 : Shape := ⟨2, ![128, 4096]⟩
abbrev S1x4096 : Shape := ⟨2, ![1, 4096]⟩
abbrev S8192x1 : Shape := ⟨2, ![8192, 1]⟩
abbrev S1024x1024 : Shape := ⟨2, ![1024, 1024]⟩
abbrev S1024x128 : Shape := ⟨2, ![1024, 128]⟩
abbrev S128x1024 : Shape := ⟨2, ![128, 1024]⟩
abbrev S1x1024 : Shape := ⟨2, ![1, 1024]⟩
abbrev S1024x1 : Shape := ⟨2, ![1024, 1]⟩

abbrev nBuf : Space → Nat
  | .hbm => 15
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8x16x4096, .f32⟩
  | .hbm, ⟨4, _⟩ => ⟨S8x4096x16, .f32⟩
  | .hbm, ⟨5, _⟩ => ⟨S8192, .f32⟩
  | .hbm, ⟨6, _⟩ => ⟨S8192, .i32⟩
  | .hbm, ⟨7, _⟩ => ⟨S4096x8x16, .f32⟩
  | .hbm, ⟨8, _⟩ => ⟨S4096x128, .f32⟩
  | .hbm, ⟨9, _⟩ => ⟨S8x16x4096, .f32⟩
  | .hbm, ⟨10, _⟩ => ⟨S128x4096, .f32⟩
  | .hbm, ⟨11, _⟩ => ⟨S1x4096, .f32⟩
  | .hbm, ⟨12, _⟩ => ⟨S8192x1, .i32⟩
  | .hbm, ⟨13, _⟩ => ⟨S8192x1, .f32⟩
  | .hbm, ⟨14, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S1024x128, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S1x1024, .f32⟩
  | .local _ .vmem, ⟨10, _⟩ => ⟨S1024x1, .i32⟩
  | .local _ .vmem, ⟨11, _⟩ => ⟨S1024x1, .i32⟩
  | .local _ .vmem, ⟨12, _⟩ => ⟨S1024x1, .f32⟩
  | .local _ .vmem, ⟨13, _⟩ => ⟨S1024x1, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  transposes_S8x16x4096_S4096x8x16_2_0_1 : S8x16x4096.Transposes [2, 0, 1] S4096x8x16
  shapeCasts_S4096x8x16_S4096x128 : S4096x8x16.ShapeCasts S4096x128
  transposes_S8x4096x16_S8x16x4096_0_2_1 : S8x4096x16.Transposes [0, 2, 1] S8x16x4096
  shapeCasts_S8x16x4096_S128x4096 : S8x16x4096.ShapeCasts S128x4096
  shapeCasts_S4096_S1x4096 : S4096.ShapeCasts S1x4096
  shapeCasts_S8192_S8192x1 : S8192.ShapeCasts S8192x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  iota_S1024x128_d1_w32 : S1024x128.Iotas .tc 32 [1]
  natLt_1_32 : 1 < 32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x4096.size a
  hwx0_3 : ∀ i : grid0.Coords, EltTy.bits .f32 = 32 ∨ (Rect.block (s := S128x4096) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .i32 = 32 ∨ (Rect.block (s := S8192x1) S1024x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x4096.size a
  hwx0_7 : ∀ i : grid0.Coords, EltTy.bits .f32 = 32 ∨ (Rect.block (s := S8192x4096) S1024x1024.size (cc0_transform_7 i) (hinb0_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S8x16x4096 : Shape := ⟨3, ![8, 16, 4096]⟩
abbrev S8x4096x16 : Shape := ⟨3, ![8, 4096, 16]⟩
abbrev S8192 : Shape := ⟨1, ![8192]⟩
abbrev S1x4096 : Shape := ⟨2, ![1, 4096]⟩
abbrev S_ : Shape := ⟨0, ![]⟩
abbrev S1x16x4096 : Shape := ⟨3, ![1, 16, 4096]⟩
abbrev S16x4096 : Shape := ⟨2, ![16, 4096]⟩
abbrev S4096x16 : Shape := ⟨2, ![4096, 16]⟩
abbrev S8192x16 : Shape := ⟨2, ![8192, 16]⟩
abbrev S8192x1 : Shape := ⟨2, ![8192, 1]⟩
abbrev S1x4096x16 : Shape := ⟨3, ![1, 4096, 16]⟩

abbrev nBuf : Space → Nat
  | .hbm => 182
  | .vmem => 0
  | .smem => 0
  | _ => 0

abbrev hbmTy0_0 (i : Nat) : BufTy := match i % 128 with
  | 0 => ⟨S8192x4096, .f32⟩
  | 1 => ⟨S4096x4096, .f32⟩
  | 2 => ⟨S4096, .f32⟩
  | 3 => ⟨S8x16x4096, .f32⟩
  | 4 => ⟨S8x4096x16, .f32⟩
  | 5 => ⟨S8192, .f32⟩
  | 6 => ⟨S8192, .i32⟩
  | 7 => ⟨S8192x4096, .f32⟩
  | 8 => ⟨S1x4096, .f32⟩
  | 9 => ⟨S8192x4096, .f32⟩
  | 10 => ⟨S8192x4096, .f32⟩
  | 11 => ⟨S_, .f32⟩
  | 12 => ⟨S8192x4096, .f32⟩
  | 13 => ⟨S1x16x4096, .f32⟩
  | 14 => ⟨S16x4096, .f32⟩
  | 15 => ⟨S4096x16, .f32⟩
  | 16 => ⟨S8192x16, .f32⟩
  | 17 => ⟨S8192x1, .f32⟩
  | 18 => ⟨S8192x16, .f32⟩
  | 19 => ⟨S8192x16, .f32⟩
  | 20 => ⟨S1x4096x16, .f32⟩
  | 21 => ⟨S4096x16, .f32⟩
  | 22 => ⟨S16x4096, .f32⟩
  | 23 => ⟨S8192x4096, .f32⟩
  | 24 => ⟨S_, .i32⟩
  | 25 => ⟨S8192, .i32⟩
  | 26 => ⟨S8192, .i1⟩
  | 27 => ⟨S8192x1, .i1⟩
  | 28 => ⟨S_, .f32⟩
  | 29 => ⟨S_, .f32⟩
  | 30 => ⟨S8192x4096, .i1⟩
  | 31 => ⟨S8192x4096, .f32⟩
  | 32 => ⟨S8192x4096, .f32⟩
  | 33 => ⟨S8192x4096, .f32⟩
  | 34 => ⟨S1x16x4096, .f32⟩
  | 35 => ⟨S16x4096, .f32⟩
  | 36 => ⟨S4096x16, .f32⟩
  | 37 => ⟨S8192x16, .f32⟩
  | 38 => ⟨S8192x1, .f32⟩
  | 39 => ⟨S8192x16, .f32⟩
  | 40 => ⟨S8192x16, .f32⟩
  | 41 => ⟨S1x4096x16, .f32⟩
  | 42 => ⟨S4096x16, .f32⟩
  | 43 => ⟨S16x4096, .f32⟩
  | 44 => ⟨S8192x4096, .f32⟩
  | 45 => ⟨S_, .i32⟩
  | 46 => ⟨S8192, .i32⟩
  | 47 => ⟨S8192, .i1⟩
  | 48 => ⟨S8192x1, .i1⟩
  | 49 => ⟨S_, .f32⟩
  | 50 => ⟨S_, .f32⟩
  | 51 => ⟨S8192x4096, .i1⟩
  | 52 => ⟨S8192x4096, .f32⟩
  | 53 => ⟨S8192x4096, .f32⟩
  | 54 => ⟨S8192x4096, .f32⟩
  | 55 => ⟨S1x16x4096, .f32⟩
  | 56 => ⟨S16x4096, .f32⟩
  | 57 => ⟨S4096x16, .f32⟩
  | 58 => ⟨S8192x16, .f32⟩
  | 59 => ⟨S8192x1, .f32⟩
  | 60 => ⟨S8192x16, .f32⟩
  | 61 => ⟨S8192x16, .f32⟩
  | 62 => ⟨S1x4096x16, .f32⟩
  | 63 => ⟨S4096x16, .f32⟩
  | 64 => ⟨S16x4096, .f32⟩
  | 65 => ⟨S8192x4096, .f32⟩
  | 66 => ⟨S_, .i32⟩
  | 67 => ⟨S8192, .i32⟩
  | 68 => ⟨S8192, .i1⟩
  | 69 => ⟨S8192x1, .i1⟩
  | 70 => ⟨S_, .f32⟩
  | 71 => ⟨S_, .f32⟩
  | 72 => ⟨S8192x4096, .i1⟩
  | 73 => ⟨S8192x4096, .f32⟩
  | 74 => ⟨S8192x4096, .f32⟩
  | 75 => ⟨S8192x4096, .f32⟩
  | 76 => ⟨S1x16x4096, .f32⟩
  | 77 => ⟨S16x4096, .f32⟩
  | 78 => ⟨S4096x16, .f32⟩
  | 79 => ⟨S8192x16, .f32⟩
  | 80 => ⟨S8192x1, .f32⟩
  | 81 => ⟨S8192x16, .f32⟩
  | 82 => ⟨S8192x16, .f32⟩
  | 83 => ⟨S1x4096x16, .f32⟩
  | 84 => ⟨S4096x16, .f32⟩
  | 85 => ⟨S16x4096, .f32⟩
  | 86 => ⟨S8192x4096, .f32⟩
  | 87 => ⟨S_, .i32⟩
  | 88 => ⟨S8192, .i32⟩
  | 89 => ⟨S8192, .i1⟩
  | 90 => ⟨S8192x1, .i1⟩
  | 91 => ⟨S_, .f32⟩
  | 92 => ⟨S_, .f32⟩
  | 93 => ⟨S8192x4096, .i1⟩
  | 94 => ⟨S8192x4096, .f32⟩
  | 95 => ⟨S8192x4096, .f32⟩
  | 96 => ⟨S8192x4096, .f32⟩
  | 97 => ⟨S1x16x4096, .f32⟩
  | 98 => ⟨S16x4096, .f32⟩
  | 99 => ⟨S4096x16, .f32⟩
  | 100 => ⟨S8192x16, .f32⟩
  | 101 => ⟨S8192x1, .f32⟩
  | 102 => ⟨S8192x16, .f32⟩
  | 103 => ⟨S8192x16, .f32⟩
  | 104 => ⟨S1x4096x16, .f32⟩
  | 105 => ⟨S4096x16, .f32⟩
  | 106 => ⟨S16x4096, .f32⟩
  | 107 => ⟨S8192x4096, .f32⟩
  | 108 => ⟨S_, .i32⟩
  | 109 => ⟨S8192, .i32⟩
  | 110 => ⟨S8192, .i1⟩
  | 111 => ⟨S8192x1, .i1⟩
  | 112 => ⟨S_, .f32⟩
  | 113 => ⟨S_, .f32⟩
  | 114 => ⟨S8192x4096, .i1⟩
  | 115 => ⟨S8192x4096, .f32⟩
  | 116 => ⟨S8192x4096, .f32⟩
  | 117 => ⟨S8192x4096, .f32⟩
  | 118 => ⟨S1x16x4096, .f32⟩
  | 119 => ⟨S16x4096, .f32⟩
  | 120 => ⟨S4096x16, .f32⟩
  | 121 => ⟨S8192x16, .f32⟩
  | 122 => ⟨S8192x1, .f32⟩
  | 123 => ⟨S8192x16, .f32⟩
  | 124 => ⟨S8192x16, .f32⟩
  | 125 => ⟨S1x4096x16, .f32⟩
  | 126 => ⟨S4096x16, .f32⟩
  | 127 => ⟨S16x4096, .f32⟩
  | _ => ⟨S8192x4096, .f32⟩

abbrev hbmTy0_1 (i : Nat) : BufTy := match i % 128 with
  | 0 => ⟨S8192x4096, .f32⟩
  | 1 => ⟨S_, .i32⟩
  | 2 => ⟨S8192, .i32⟩
  | 3 => ⟨S8192, .i1⟩
  | 4 => ⟨S8192x1, .i1⟩
  | 5 => ⟨S_, .f32⟩
  | 6 => ⟨S_, .f32⟩
  | 7 => ⟨S8192x4096, .i1⟩
  | 8 => ⟨S8192x4096, .f32⟩
  | 9 => ⟨S8192x4096, .f32⟩
  | 10 => ⟨S8192x4096, .f32⟩
  | 11 => ⟨S1x16x4096, .f32⟩
  | 12 => ⟨S16x4096, .f32⟩
  | 13 => ⟨S4096x16, .f32⟩
  | 14 => ⟨S8192x16, .f32⟩
  | 15 => ⟨S8192x1, .f32⟩
  | 16 => ⟨S8192x16, .f32⟩
  | 17 => ⟨S8192x16, .f32⟩
  | 18 => ⟨S1x4096x16, .f32⟩
  | 19 => ⟨S4096x16, .f32⟩
  | 20 => ⟨S16x4096, .f32⟩
  | 21 => ⟨S8192x4096, .f32⟩
  | 22 => ⟨S_, .i32⟩
  | 23 => ⟨S8192, .i32⟩
  | 24 => ⟨S8192, .i1⟩
  | 25 => ⟨S8192x1, .i1⟩
  | 26 => ⟨S_, .f32⟩
  | 27 => ⟨S_, .f32⟩
  | 28 => ⟨S8192x4096, .i1⟩
  | 29 => ⟨S8192x4096, .f32⟩
  | 30 => ⟨S8192x4096, .f32⟩
  | 31 => ⟨S8192x4096, .f32⟩
  | 32 => ⟨S1x16x4096, .f32⟩
  | 33 => ⟨S16x4096, .f32⟩
  | 34 => ⟨S4096x16, .f32⟩
  | 35 => ⟨S8192x16, .f32⟩
  | 36 => ⟨S8192x1, .f32⟩
  | 37 => ⟨S8192x16, .f32⟩
  | 38 => ⟨S8192x16, .f32⟩
  | 39 => ⟨S1x4096x16, .f32⟩
  | 40 => ⟨S4096x16, .f32⟩
  | 41 => ⟨S16x4096, .f32⟩
  | 42 => ⟨S8192x4096, .f32⟩
  | 43 => ⟨S_, .i32⟩
  | 44 => ⟨S8192, .i32⟩
  | 45 => ⟨S8192, .i1⟩
  | 46 => ⟨S8192x1, .i1⟩
  | 47 => ⟨S_, .f32⟩
  | 48 => ⟨S_, .f32⟩
  | 49 => ⟨S8192x4096, .i1⟩
  | 50 => ⟨S8192x4096, .f32⟩
  | 51 => ⟨S8192x4096, .f32⟩
  | 52 => ⟨S8192x4096, .f32⟩
  | 53 => ⟨S8192x4096, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_3 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_5 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_6 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_7 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_8 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_9 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_10 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_c_11 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_12 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_13 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_14 : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  slices_S8x16x4096_S1x16x4096_0_0_0 : S8x16x4096.Slices ![0, 0, 0] S1x16x4096
  shapeCasts_S1x16x4096_S16x4096 : S1x16x4096.ShapeCasts S16x4096
  transposes_S16x4096_S4096x16_1_0 : S16x4096.Transposes [1, 0] S4096x16
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  slices_S8x4096x16_S1x4096x16_0_0_0 : S8x4096x16.Slices ![0, 0, 0] S1x4096x16
  shapeCasts_S1x4096x16_S4096x16 : S1x4096x16.ShapeCasts S4096x16
  transposes_S4096x16_S16x4096_1_0 : S4096x16.Transposes [1, 0] S16x4096
  bcast_S_S8192 : S_.BroadcastsInDim S8192 (![] : Fin 0 → Fin S8192.rank)
  bcast_S8192x1_S8192x4096_0_1 : S8192x1.BroadcastsInDim S8192x4096 (![0, 1] : Fin 2 → Fin S8192x4096.rank)
  slices_S8x16x4096_S1x16x4096_1_0_0 : S8x16x4096.Slices ![1, 0, 0] S1x16x4096
  slices_S8x4096x16_S1x4096x16_1_0_0 : S8x4096x16.Slices ![1, 0, 0] S1x4096x16
  slices_S8x16x4096_S1x16x4096_2_0_0 : S8x16x4096.Slices ![2, 0, 0] S1x16x4096
  slices_S8x4096x16_S1x4096x16_2_0_0 : S8x4096x16.Slices ![2, 0, 0] S1x4096x16
  slices_S8x16x4096_S1x16x4096_3_0_0 : S8x16x4096.Slices ![3, 0, 0] S1x16x4096
  slices_S8x4096x16_S1x4096x16_3_0_0 : S8x4096x16.Slices ![3, 0, 0] S1x4096x16
  slices_S8x16x4096_S1x16x4096_4_0_0 : S8x16x4096.Slices ![4, 0, 0] S1x16x4096
  slices_S8x4096x16_S1x4096x16_4_0_0 : S8x4096x16.Slices ![4, 0, 0] S1x4096x16
  slices_S8x16x4096_S1x16x4096_5_0_0 : S8x16x4096.Slices ![5, 0, 0] S1x16x4096
  slices_S8x4096x16_S1x4096x16_5_0_0 : S8x4096x16.Slices ![5, 0, 0] S1x4096x16
  slices_S8x16x4096_S1x16x4096_6_0_0 : S8x16x4096.Slices ![6, 0, 0] S1x16x4096
  slices_S8x4096x16_S1x4096x16_6_0_0 : S8x4096x16.Slices ![6, 0, 0] S1x4096x16
  slices_S8x16x4096_S1x16x4096_7_0_0 : S8x16x4096.Slices ![7, 0, 0] S1x16x4096
  slices_S8x4096x16_S1x4096x16_7_0_0 : S8x4096x16.Slices ![7, 0, 0] S1x4096x16
  dot_S8192x4096_S4096x4096_S8192x4096_1_0_0_1_n_n_wf : DotDims.WF S8192x4096 S4096x4096 S8192x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.AdapterSpec.lean ====
/-
  The function both programs compute, over the extended reals.  For a token row `s` and an output column `o`

      out[s, o] = (Σ_k x[s,k] · w[k,o] + bias[o])
                  + Σ_e [tok[s] = e] · Σ_r ((Σ_k x[s,k] · a[e,r,k]) · scal[s]) · b[e,o,r]

  — a dense layer plus, for the one adapter `e` the token is routed to, a rank-16 correction: the row is projected
  down by that adapter's `a`, scaled per token, and projected up by its `b`.  Here too are the regroupings of
  finite sums that join the two programs' arrangements of it: a sum over 4096 = 4 · 1024 terms taken block by block,
  a sum over 128 = 8 · 16 stacked adapter columns taken adapter by adapter, and a 0/1 factor taken out of a sum.
  Addition and multiplication of extended reals are commutative and associative, `0` is absorbing for the product
  and neutral for the sum: nothing here needs an entry to be finite.
-/
import Idealize.ShloMosaic.Lib.ValueIdx
import Idealize.ShloMosaic.PureOps.Ideal.Laws
import Mathlib.Algebra.BigOperators.Fin
import Mathlib.Logic.Equiv.Fin.Basic

noncomputable section

open scoped BigOperators

namespace Cert.Adapter

open Idealize.ShloMosaic Idealize.ShloMosaic.ValueIdx

/-! ## The function -/

/-- The dense layer: row `s` of `x` against column `o` of `w`, plus the bias. -/
def base (x : (⟨2, ![8192, 4096]⟩ : Shape).Idx → EReal) (w : (⟨2, ![4096, 4096]⟩ : Shape).Idx → EReal)
    (bias : (⟨1, ![4096]⟩ : Shape).Idx → EReal) (s : Fin 8192) (o : Fin 4096) : EReal :=
  (∑ k : Fin 4096, x (ix2 s k) * w (ix2 k o)) + bias (ix1 o)

/-- Row `s` projected down by adapter `e`'s `a` (its row `r`), scaled by the token's factor. -/
def down (x : (⟨2, ![8192, 4096]⟩ : Shape).Idx → EReal) (a : (⟨3, ![8, 16, 4096]⟩ : Shape).Idx → EReal)
    (scal : (⟨1, ![8192]⟩ : Shape).Idx → EReal) (e : Fin 8) (s : Fin 8192) (r : Fin 16) : EReal :=
  (∑ k : Fin 4096, x (ix2 s k) * a (ix3 e r k)) * scal (ix1 s)

/-- … and projected up again by adapter `e`'s `b`, at output column `o`. -/
def up (x : (⟨2, ![8192, 4096]⟩ : Shape).Idx → EReal) (a : (⟨3, ![8, 16, 4096]⟩ : Shape).Idx → EReal)
    (b : (⟨3, ![8, 4096, 16]⟩ : Shape).Idx → EReal) (scal : (⟨1, ![8192]⟩ : Shape).Idx → EReal)
    (e : Fin 8) (s : Fin 8192) (o : Fin 4096) : EReal :=
  ∑ r : Fin 16, down x a scal e s r * b (ix3 e o r)

/-- The correction of row `s`: the adapter its token names, none if the token names no adapter. -/
def routed (x : (⟨2, ![8192, 4096]⟩ : Shape).Idx → EReal) (a : (⟨3, ![8, 16, 4096]⟩ : Shape).Idx → EReal)
    (b : (⟨3, ![8, 4096, 16]⟩ : Shape).Idx → EReal) (scal : (⟨1, ![8192]⟩ : Shape).Idx → EReal)
    (tok : (⟨1, ![8192]⟩ : Shape).Idx → BitVec 32) (s : Fin 8192) (o : Fin 4096) : EReal :=
  ∑ e : Fin 8, if tok (ix1 s) = BitVec.ofNat 32 e.val then up x a b scal e s o else 0

/-- The whole result array. -/
def result (x : (⟨2, ![8192, 4096]⟩ : Shape).Idx → EReal) (w : (⟨2, ![4096, 4096]⟩ : Shape).Idx → EReal)
    (bias : (⟨1, ![4096]⟩ : Shape).Idx → EReal) (a : (⟨3, ![8, 16, 4096]⟩ : Shape).Idx → EReal)
    (b : (⟨3, ![8, 4096, 16]⟩ : Shape).Idx → EReal) (scal : (⟨1, ![8192]⟩ : Shape).Idx → EReal)
    (tok : (⟨1, ![8192]⟩ : Shape).Idx → BitVec 32) : (⟨2, ![8192, 4096]⟩ : Shape).Idx → EReal := fun j =>
  base x w bias (j 0) (j 1) + routed x a b scal tok (j 0) (j 1)

/-! ## Regrouping finite sums -/

/-- A sum over `m · n` consecutive naturals, taken as `m` runs of `n`. -/
theorem sum_fin_mul {M : Type*} [AddCommMonoid M] (m n : ℕ) (f : ℕ → M) :
    ∑ k : Fin (m * n), f k.val = ∑ i : Fin m, ∑ j : Fin n, f (n * i.val + j.val) := by
  rw [← Equiv.sum_comp finProdFinEquiv (fun k : Fin (m * n) => f k.val), Fintype.sum_prod_type]
  refine Finset.sum_congr rfl fun i _ => Finset.sum_congr rfl fun j _ => ?_
  show f (finProdFinEquiv (i, j)).val = _
  rw [finProdFinEquiv_apply_val, Nat.add_comm]

/-- The contraction over 4096 taken in four blocks of 1024, the blocks counted by a range. -/
theorem sum_kblocks {M : Type*} [AddCommMonoid M] (f : ℕ → M) :
    ∑ s ∈ Finset.range 4, ∑ kk : Fin 1024, f (1024 * s + kk.val) = ∑ k : Fin 4096, f k.val := by
  rw [Finset.sum_range (fun s => ∑ kk : Fin 1024, f (1024 * s + kk.val))]
  exact (sum_fin_mul 4 1024 f).symm

/-- The 128 stacked adapter columns taken adapter by adapter: column `16 e + r` is row `r` of adapter `e`. -/
theorem sum_adapters {M : Type*} [AddCommMonoid M] (g : ℕ → M) :
    ∑ c : Fin 128, g c.val = ∑ e : Fin 8, ∑ r : Fin 16, g (16 * e.val + r.val) :=
  sum_fin_mul 8 16 g

/-- A factor that is `1` or `0` by a condition not depending on the summation index comes out of the sum. -/
theorem sum_mul_indicator {ι : Type*} [Fintype ι] (p : Prop) [Decidable p] (d b : ι → EReal) :
    ∑ r, (d r * (if p then (1 : EReal) else 0)) * b r = if p then ∑ r, d r * b r else 0 := by
  by_cases h : p
  · simp only [if_pos h, mul_one]
  · simp only [if_neg h, mul_zero, zero_mul, Finset.sum_const_zero]

end Cert.Adapter

end
-- ==== Proof.KernelPieces.lean ====
/-
  What one grid step leaves behind, as a term of what it loaded.  The reduction over the contraction axis runs in
  four steps per output tile.  The first step zeroes both accumulators and adds its block products onto the zeros;
  a middle step adds its block products onto what the step before left; the last step does the same and then stores
  the output tile: (dense accumulator + bias) + routed correction, the correction taken from the down-projection
  accumulator it has just completed.  Valid at every reading of the floats.
-/
import proofs.«176441_j8899172237474_1_alg».proof.Proof.Gen.KernelIdeal.Frame
import Idealize.ShloMosaic.Lib.Pipeline.Value
import Idealize.ShloMosaic.Lib.Tactic

noncomputable section

open scoped BigOperators
open Idealize.ShloMosaic Idealize.ShloMosaic.TcCoe Idealize.SL.Sem

namespace Cert.KernelIdeal.Pieces

open Cert.KernelIdeal Cert.KernelIdeal.Gen

variable {F : FTy → Type} [FloatOps F]

/-- The zero offsets as the literal vector the generated rectangles spell. -/
private theorem hz : (![0, 0] : Fin 2 → Nat) = fun _ => 0 := funext fun a => by fin_cases a <;> rfl

/-- First step: the dense accumulator holds zero plus the step's block product. -/
theorem dense_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S128x1024 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x128 .f32) (harg12 : arg12.IsWhole) (hc0 : cond0_0 i) (hc1 : ¬cond0_1 i)
    (x0 : Vec F S1024x1024 .f32) (x1 : Vec F S1024x1024 .f32) (x2 : Vec F S1024x128 .f32) (x3 : Vec F S128x1024 .f32) (x4 : Vec F S1x1024 .f32) (x5 : Vec F S1024x1 .i32) (x6 : Vec F S1024x1 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1024x1024) hz]
  simp only [View.readAt_eq_ld, harg3.read_unread, harg4.read_unread, View.ld_unit_zero (S := S1024x1024) hz, View.readCov_unit_zero (S := S1024x1024) _ hz]

/-- First step: the down-projection accumulator holds zero plus the step's block product. -/
theorem down_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S128x1024 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x128 .f32) (harg12 : arg12.IsWhole) (hc0 : cond0_0 i) (hc1 : ¬cond0_1 i)
    (x0 : Vec F S1024x1024 .f32) (x1 : Vec F S1024x1024 .f32) (x2 : Vec F S1024x128 .f32) (x3 : Vec F S128x1024 .f32) (x4 : Vec F S1x1024 .f32) (x5 : Vec F S1024x1 .i32) (x6 : Vec F S1024x1 .f32) :
    sout0_A_1 c i arg3 harg3 arg4 harg4 arg5 harg5 arg6 harg6 arg7 harg7 arg8 harg8 arg9 harg9 arg10 harg10 arg11 harg11 arg12 harg12 hc0 hc1 x0 x1 x2 x3 x4 x5 x6 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1024x128) hz]
  simp only [View.readAt_eq_ld, harg3.read_unread, harg5.read_unread, View.ld_unit_zero (S := S1024x1024) hz, View.ld_unit_zero (S := S1024x128) hz, View.readCov_unit_zero (S := S1024x128) _ hz]

/-- Middle step: the step's block product added onto what the dense accumulator held. -/
theorem dense_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S128x1024 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x128 .f32) (harg12 : arg12.IsWhole) (hc0 : ¬cond0_0 i) (hc1 : ¬cond0_1 i)
    (x0 : Vec F S1024x1024 .f32) (x1 : Vec F S1024x1024 .f32) (x2 : Vec F S1024x128 .f32) (x3 : Vec F S128x1024 .f32) (x4 : Vec F S1x1024 .f32) (x5 : Vec F S1024x1 .i32) (x6 : Vec F S1024x1 .f32) (xs0 : Vec F S1024x1024 .f32) (xs1 : Vec F S1024x128 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg3.read_unread, harg4.read_unread, harg5.read_unread, harg11.read_unread, harg12.read_unread, View.ld_unit_zero (S := S1024x1024) hz, View.ld_unit_zero (S := S1024x128) hz]

/-- Middle step: the step's block product added onto what the down-projection accumulator held. -/
theorem down_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S128x1024 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x128 .f32) (harg12 : arg12.IsWhole) (hc0 : ¬cond0_0 i) (hc1 : ¬cond0_1 i)
    (x0 : Vec F S1024x1024 .f32) (x1 : Vec F S1024x1024 .f32) (x2 : Vec F S1024x128 .f32) (x3 : Vec F S128x1024 .f32) (x4 : Vec F S1x1024 .f32) (x5 : Vec F S1024x1 .i32) (x6 : Vec F S1024x1 .f32) (xs0 : Vec F S1024x1024 .f32) (xs1 : Vec F S1024x128 .f32) :
    sout0_B_1 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg3.read_unread, harg4.read_unread, harg5.read_unread, harg11.read_unread, harg12.read_unread, View.ld_unit_zero (S := S1024x1024) hz, View.ld_unit_zero (S := S1024x128) hz]

/-- Last step: the dense accumulator, as at a middle step. -/
theorem dense_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S128x1024 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x128 .f32) (harg12 : arg12.IsWhole) (hc0 : ¬cond0_0 i) (hc1 : cond0_1 i)
    (x0 : Vec F S1024x1024 .f32) (x1 : Vec F S1024x1024 .f32) (x2 : Vec F S1024x128 .f32) (x3 : Vec F S128x1024 .f32) (x4 : Vec F S1x1024 .f32) (x5 : Vec F S1024x1 .i32) (x6 : Vec F S1024x1 .f32) (xs0 : Vec F S1024x1024 .f32) (xs1 : Vec F S1024x128 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg11.read_unread, harg12.read_unread, View.ld_unit_zero (S := S1024x1024) hz, View.ld_unit_zero (S := S1024x128) hz]

/-- Last step: the down-projection accumulator, as at a middle step. -/
theorem down_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S128x1024 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x128 .f32) (harg12 : arg12.IsWhole) (hc0 : ¬cond0_0 i) (hc1 : cond0_1 i)
    (x0 : Vec F S1024x1024 .f32) (x1 : Vec F S1024x1024 .f32) (x2 : Vec F S1024x128 .f32) (x3 : Vec F S128x1024 .f32) (x4 : Vec F S1x1024 .f32) (x5 : Vec F S1024x1 .i32) (x6 : Vec F S1024x1 .f32) (xs0 : Vec F S1024x1024 .f32) (xs1 : Vec F S1024x128 .f32) :
    sout0_C_1 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg11.read_unread, harg12.read_unread, View.ld_unit_zero (S := S1024x1024) hz, View.ld_unit_zero (S := S1024x128) hz]

/-- Last step: the output tile is (completed dense accumulator + bias) + the correction routed from the completed down-projection accumulator. -/
theorem tile_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S128x1024 .f32) (harg6 : arg6.IsWhole) (arg7 : Memref sig .tc .vmem S1x1024 .f32) (harg7 : arg7.IsWhole) (arg8 : Memref sig .tc .vmem S1024x1 .i32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x128 .f32) (harg12 : arg12.IsWhole) (hc0 : ¬cond0_0 i) (hc1 : cond0_1 i)
    (x0 : Vec F S1024x1024 .f32) (x1 : Vec F S1024x1024 .f32) (x2 : Vec F S1024x128 .f32) (x3 : Vec F S128x1024 .f32) (x4 : Vec F S1x1024 .f32) (x5 : Vec F S1024x1 .i32) (x6 : Vec F S1024x1 .f32) (xs0 : Vec F S1024x1024 .f32) (xs1 : Vec F S1024x128 .f32) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay6 (k0_pay7 (k0_pay5 x0 x2 xs1) x6 x5 x3) (k0_pay4 x0 x1 xs0) x4 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg11.read_unread, harg12.read_unread, View.ld_unit_zero (S := S1024x1024) hz, View.ld_unit_zero (S := S1024x128) hz, View.ld_unit_zero (S := S128x1024) hz, View.ld_unit_zero (S := S1x1024) hz, View.ld_unit_zero (S := S1024x1) hz, View.readCov_unit_zero (S := S1024x1024) _ hz, View.readCov_unit_zero (S := S1024x128) _ hz]

end Cert.KernelIdeal.Pieces

end
-- ==== Proof.KernelPayloads.lean ====
/-
  The kernel body's arithmetic, one entry at a time, on the extended reals.  Each store's value is a pure function of
  the blocks the body loaded; read at row `p` and column `q` (or stacked adapter column `c`) of a block it is:
  a zero; the accumulator plus one block product's entry (a sum over the block's 1024 contraction positions);
  for the last step, the row's 128 scaled down-projections, each kept only if its column belongs to the adapter the
  row's token names (column `c` belongs to adapter `c / 16`), multiplied into the stacked up-projection;
  and the closing sum  (accumulated dense product + bias) + correction.
-/
import proofs.«176441_j8899172237474_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem

namespace Cert.KernelIdeal.Payloads

open Cert.KernelIdeal Cert.KernelIdeal.Gen Idealize.ShloMosaic.ValueIdx

/-- The dense accumulator is reset to zero. -/
theorem zero_block (y : S1024x1024.Idx) : k0_pay1 (F := Ideal) y = 0 := by
  unfold k0_pay1
  rw [shapeCast_self]
  exact Ideal.ofBits_zero_f32

/-- The down-projection accumulator is reset to zero. -/
theorem zero_cols (y : S1024x128.Idx) : k0_pay2 (F := Ideal) y = 0 := by
  unfold k0_pay2
  rw [shapeCast_self]
  exact Ideal.ofBits_zero_f32

/-! ### The block product `base`: [1024,1024] × [1024,1024] → [1024,1024] -/

theorem lhs_base_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_base_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_base_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_base_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into the zero accumulator, read at row `p` and column `q`: the sum over the 1024 contraction
    positions of the left operand's row entry times the right operand's column entry. -/
theorem matmul_base {φ₁ φ₂ : FTy} (a : FVec Ideal S1024x1024 φ₁) (b : FVec Ideal S1024x1024 φ₂) (p : Fin 1024) (q : Fin 1024) :
    FloatOps.matmul dot_S1024x1024_S1024x1024_S1024x1024_1_0_0_1_n_n none a b (constant (F := Ideal) S1024x1024 .f32 0x00000000#32) (ix2 p q)
      = ∑ kk : Fin 1024, a (ix2 p kk) * b (ix2 kk q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun ax => Fin.ext (by
    match ax with
    | ⟨0, _⟩ => exact lhs_base_0 _ _
    | ⟨1, _⟩ => exact (lhs_base_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun ax => Fin.ext (by
    match ax with
    | ⟨0, _⟩ => exact (rhs_base_0 _ _).trans hk
    | ⟨1, _⟩ => exact rhs_base_1 _ _)
  rw [el, er]

/-! ### The block product `down`: [1024,1024] × [1024,128] → [1024,128] -/

theorem lhs_down_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_down_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_down_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_down_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product into the zero accumulator, read at row `p` and column `q`: the sum over the 1024 contraction
    positions of the left operand's row entry times the right operand's column entry. -/
theorem matmul_down {φ₁ φ₂ : FTy} (a : FVec Ideal S1024x1024 φ₁) (b : FVec Ideal S1024x128 φ₂) (p : Fin 1024) (q : Fin 128) :
    FloatOps.matmul dot_S1024x1024_S1024x128_S1024x128_1_0_0_1_n_n none a b (constant (F := Ideal) S1024x128 .f32 0x00000000#32) (ix2 p q)
      = ∑ kk : Fin 1024, a (ix2 p kk) * b (ix2 kk q) := by
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun ax => Fin.ext (by
    match ax with
    | ⟨0, _⟩ => exact lhs_down_0 _ _
    | ⟨1, _⟩ => exact (lhs_down_1 _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun ax => Fin.ext (by
    match ax with
    | ⟨0, _⟩ => exact (rhs_down_0 _ _).trans hk
    | ⟨1, _⟩ => exact rhs_down_1 _ _)
  rw [el, er]

/-! ### The block product `up`: [1024,128] × [128,1024] → [1024,1024] -/

theorem lhs_up_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_up_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_up_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_up_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product into the zero accumulator, read at row `p` and column `q`: the sum over the 128 contraction
    positions of the left operand's row entry times the right operand's column entry. -/
theorem matmul_up {φ₁ φ₂ : FTy} (a : FVec Ideal S1024x128 φ₁) (b : FVec Ideal S128x1024 φ₂) (p : Fin 1024) (q : Fin 1024) :
    FloatOps.matmul dot_S1024x128_S128x1024_S1024x1024_1_0_0_1_n_n none a b (constant (F := Ideal) S1024x1024 .f32 0x00000000#32) (ix2 p q)
      = ∑ kk : Fin 128, a (ix2 p kk) * b (ix2 kk q) := by
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k := funext fun ax => Fin.ext (by
    match ax with
    | ⟨0, _⟩ => exact lhs_up_0 _ _
    | ⟨1, _⟩ => exact (lhs_up_1 _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q := funext fun ax => Fin.ext (by
    match ax with
    | ⟨0, _⟩ => exact (rhs_up_0 _ _).trans hk
    | ⟨1, _⟩ => exact rhs_up_1 _ _)
  rw [el, er]

/-- One contraction block of the dense product added onto the accumulator. -/
theorem accumulate_base (v3 v5 v7 : Vec Ideal S1024x1024 .f32) (p q : Fin 1024) :
    k0_pay4 v3 v5 v7 (ix2 p q) = v7 (ix2 p q) + ∑ kk : Fin 1024, v3 (ix2 p kk) * v5 (ix2 kk q) := by
  unfold k0_pay4 k0_pay3
  rw [shapeCast_self]
  refine (addf_apply _ _ _).trans ?_
  exact congrArg (v7 (ix2 p q) + ·) (matmul_base _ _ p q)

/-- One contraction block of the down-projection (all 128 stacked adapter columns) added onto its accumulator. -/
theorem accumulate_down (v3 : Vec Ideal S1024x1024 .f32) (v13 v16 : Vec Ideal S1024x128 .f32) (p : Fin 1024) (c : Fin 128) :
    k0_pay5 v3 v13 v16 (ix2 p c) = v16 (ix2 p c) + ∑ kk : Fin 1024, v3 (ix2 p kk) * v13 (ix2 kk c) := by
  unfold k0_pay5 k0_pay3
  rw [shapeCast_self, shapeCast_self]
  refine (addf_apply _ _ _).trans ?_
  exact congrArg (v16 (ix2 p c) + ·) (matmul_down _ _ p c)

/-! ### The routed up-projection -/

/-- A [a,1] column broadcast to [a,b] reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The integer chain that sends a lane number to its adapter: the quotient by 16 rounded toward zero, lowered by one
    when the lane and 16 have different signs and the remainder is not zero (the floor-division correction). -/
private def laneAdapter (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 16#32 0#32)) (Scalar.extui (Scalar.cmpi .slt 16#32 0#32))))
      (IntOp.cmpi .ne (IntOp.remsi .vector x 16#32) 0#32))
    (IntOp.subi (IntOp.divsi .vector x 16#32) 1#32)
    (IntOp.divsi .vector x 16#32)

/-- On the 128 lanes the correction never fires: lane `c` belongs to adapter `c / 16`. -/
private theorem laneAdapter_ofNat : ∀ c : Fin 128, laneAdapter (BitVec.ofNat 32 c.val) = BitVec.ofNat 32 (c.val / 16) := by
  decide

/-- The routing mask as an extended real: the one-bit equality test of two words, widened and read as a signed
    integer, is `1` when the words are equal and `0` otherwise. -/
private theorem mask_eq (t w : BitVec 32) :
    FloatOps.sitofp (F := Ideal) .f32 ((IntOp.cmpi .eq t w).setWidth 32) = if t = w then (1 : EReal) else 0 := by
  show (((((IntOp.cmpi .eq t w).setWidth 32).toInt : ℤ) : ℝ) : EReal) = _
  by_cases h : t = w
  · subst h
    have e : (IntOp.cmpi .eq t t).setWidth 32 = 1#32 := by simp [IntOp.cmpi]
    rw [if_pos rfl, e]
    norm_num
  · have hb : (t == w) = false := beq_eq_false_iff_ne.mpr h
    have e : (IntOp.cmpi .eq t w).setWidth 32 = 0#32 := by simp [IntOp.cmpi, hb]
    rw [if_neg h, e]
    norm_num

/-- The routed up-projection: the scaled down-projections of the row, column `c` kept when the row's token is
    adapter `c / 16`, against the stacked up-projection block. -/
theorem routed_up (v25 : Vec Ideal S1024x128 .f32) (v26 : Vec Ideal S1024x1 .f32) (v55 : Vec Ideal S1024x1 .i32)
    (v63 : Vec Ideal S128x1024 .f32) (p q : Fin 1024) :
    k0_pay7 v25 v26 v55 v63 (ix2 p q)
      = ∑ c : Fin 128, ((v25 (ix2 p c) * v26 (ix2 p (0 : Fin 1)))
          * (if v55 (ix2 p (0 : Fin 1)) = BitVec.ofNat 32 (c.val / 16) then (1 : EReal) else 0)) * v63 (ix2 c q) := by
  unfold k0_pay7
  simp only [shapeCast_self]
  refine (matmul_up _ _ p q).trans ?_
  refine Finset.sum_congr rfl fun c _ => ?_
  change (v25 (ix2 p c) * broadcastTo S1024x128 v26 broadcasts_S1024x1_S1024x128 (ix2 p c))
      * FloatOps.sitofp (F := Ideal) .f32 ((IntOp.cmpi .eq (broadcastTo S1024x128 v55 broadcasts_S1024x1_S1024x128 (ix2 p c))
          (laneAdapter (iota .tc S1024x128 32 [1] iota_S1024x128_d1_w32 (ix2 p c)))).setWidth 32)
      * v63 (ix2 c q) = _
  rw [broadcastTo_a1_ab_apply v26, broadcastTo_a1_ab_apply v55, iota_single_apply]
  change _ * FloatOps.sitofp (F := Ideal) .f32 ((IntOp.cmpi .eq (v55 (ix2 p (0 : Fin 1))) (laneAdapter (BitVec.ofNat 32 c.val))).setWidth 32) * _ = _
  rw [laneAdapter_ofNat c, mask_eq]

/-- The closing sum: (dense accumulator + bias) + correction. -/
theorem epilogue (v66 v67 : Vec Ideal S1024x1024 .f32) (v68 : Vec Ideal S1x1024 .f32) (p q : Fin 1024) :
    k0_pay6 v66 v67 v68 (ix2 p q) = (v67 (ix2 p q) + v68 (ix2 (0 : Fin 1) q)) + v66 (ix2 p q) := by
  unfold k0_pay6
  rw [shapeCast_self]
  refine (addf_apply _ _ _).trans ?_
  refine congrArg (· + v66 (ix2 p q)) ?_
  refine (addf_apply _ _ _).trans ?_
  exact congrArg (v67 (ix2 p q) + ·) (broadcastTo_1b_ab_apply v68 _ p q)

end Cert.KernelIdeal.Payloads

end
-- ==== Proof.KernelBlocks.lean ====
/-
  Each block a grid step loads, as entries of the program's arguments.  Step `t` of the 8 × 4 × 4 grid works on row
  tile `t / 16`, column tile `(t / 4) % 4` and contraction block `t % 4`, every tile 1024 wide.  The stacked
  adapter matrices the kernel reads are re-layouts of the arguments made before the call: column `c` of the stacked
  down-projection is row `c % 16` of adapter `c / 16`, transposed; row `c` of the stacked up-projection is column
  `c % 16` of adapter `c / 16`, transposed; the bias, the tokens and the per-token factors are the arguments seen as a
  row or as columns.  Valid at every reading of the floats.
-/
import proofs.«176441_j8899172237474_1_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The blocks step `t` loads, each at its literal type. -/
abbrev xblk (c : Dev nD) (t : Fin cfg0.N) : Vec F S1024x1024 .f32 := iblk m c 0 t
abbrev wblk (c : Dev nD) (t : Fin cfg0.N) : Vec F S1024x1024 .f32 := iblk m c 1 t
abbrev ablk (c : Dev nD) (t : Fin cfg0.N) : Vec F S1024x128 .f32 := iblk m c 2 t
abbrev bblk (c : Dev nD) (t : Fin cfg0.N) : Vec F S128x1024 .f32 := iblk m c 3 t
abbrev biasblk (c : Dev nD) (t : Fin cfg0.N) : Vec F S1x1024 .f32 := iblk m c 4 t
abbrev tokblk (c : Dev nD) (t : Fin cfg0.N) : Vec F S1024x1 .i32 := iblk m c 5 t
abbrev scalblk (c : Dev nD) (t : Fin cfg0.N) : Vec F S1024x1 .f32 := iblk m c 6 t

/-- The index maps of the seven input windows, decided once over the 128 grid steps. -/
private theorem idx_facts : ∀ t : Fin grid0.N,
    (win0_0.index t 0 = t.val / 16 ∧ win0_0.index t 1 = t.val % 4)
    ∧ (win0_1.index t 0 = t.val % 4 ∧ win0_1.index t 1 = (t.val / 4) % 4)
    ∧ (win0_2.index t 0 = t.val % 4 ∧ win0_2.index t 1 = 0)
    ∧ (win0_3.index t 0 = 0 ∧ win0_3.index t 1 = (t.val / 4) % 4)
    ∧ (win0_4.index t 0 = 0 ∧ win0_4.index t 1 = (t.val / 4) % 4)
    ∧ (win0_5.index t 0 = t.val / 16 ∧ win0_5.index t 1 = 0)
    ∧ (win0_6.index t 0 = t.val / 16 ∧ win0_6.index t 1 = 0) := by
  decide +kernel

/-- The stacked down-projection read at an index: its entry `(r, 16 a + b)` is entry `(a, b, r)` of the argument
    (the transpose puts the contraction axis first, the reshape merges adapter and rank row-major). -/
private theorem stackA_apply {α : Type} (x : S8x16x4096.Idx → α) (j : S4096x128.Idx) (k : S8x16x4096.Idx)
    (h0 : (j 0).val = (k 2).val) (h1 : (j 1).val = (k 0).val * 16 + (k 1).val) :
    shapeCast S4096x128 (transpose S4096x8x16 [2, 0, 1] x transposes_S8x16x4096_S4096x8x16_2_0_1)
      shapeCasts_S4096x8x16_S4096x128 j = x k := by
  refine (shapeCast_apply _ _ j (ix3 (k 2) (k 0) (k 1)) ?_).trans ?_
  · rw [Shape.rowMajor_val_three, Shape.rowMajor_val_two]
    show ((k 2).val * 8 + (k 0).val) * 16 + (k 1).val = (j 0).val * 128 + (j 1).val
    rw [h0, h1]; omega
  · exact transpose_apply _ _ _ _ k (fun b => by
      match b with
      | ⟨0, _⟩ => rfl
      | ⟨1, _⟩ => rfl
      | ⟨2, _⟩ => rfl)

/-- The stacked up-projection read at an index: its entry `(16 a + b, q)` is entry `(a, q, b)` of the argument
    (the transpose swaps the last two axes, the reshape merges adapter and rank row-major). -/
private theorem stackB_apply {α : Type} (x : S8x4096x16.Idx → α) (j : S128x4096.Idx) (k : S8x4096x16.Idx)
    (h0 : (j 0).val = (k 0).val * 16 + (k 2).val) (h1 : (j 1).val = (k 1).val) :
    shapeCast S128x4096 (transpose S8x16x4096 [0, 2, 1] x transposes_S8x4096x16_S8x16x4096_0_2_1)
      shapeCasts_S8x16x4096_S128x4096 j = x k := by
  refine (shapeCast_apply _ _ j (ix3 (k 0) (k 2) (k 1)) ?_).trans ?_
  · rw [Shape.rowMajor_val_three, Shape.rowMajor_val_two]
    show ((k 0).val * 16 + (k 2).val) * 4096 + (k 1).val = (j 0).val * 4096 + (j 1).val
    rw [h0, h1]
  · exact transpose_apply _ _ _ _ k (fun b => by
      match b with
      | ⟨0, _⟩ => rfl
      | ⟨1, _⟩ => rfl
      | ⟨2, _⟩ => rfl)

/-- A vector seen as one row: entry `(0, q)` is entry `q`. -/
private theorem asRow_apply {α : Type} (x : S4096.Idx → α) (j : S1x4096.Idx) (k : S4096.Idx)
    (h1 : (j 1).val = (k 0).val) : shapeCast S1x4096 x shapeCasts_S4096_S1x4096 j = x k := by
  refine shapeCast_apply _ _ j k ?_
  rw [Shape.rowMajor_val_one, Shape.rowMajor_val_two]
  show (k 0).val = (j 0).val * 4096 + (j 1).val
  have : (j 0).val = 0 := by
    have h : (j 0).val < 1 := (j 0).isLt
    omega
  rw [this, h1]; omega

/-- A vector seen as one column: entry `(p, 0)` is entry `p`. -/
private theorem asCol_apply {α : Type} (x : S8192.Idx → α) (j : S8192x1.Idx) (k : S8192.Idx)
    (h0 : (j 0).val = (k 0).val) : shapeCast S8192x1 x shapeCasts_S8192_S8192x1 j = x k := by
  refine shapeCast_apply _ _ j k ?_
  rw [Shape.rowMajor_val_one, Shape.rowMajor_val_two]
  show (k 0).val = (j 0).val * 1 + (j 1).val
  have : (j 1).val = 0 := by
    have h : (j 1).val < 1 := (j 1).isLt
    omega
  rw [this, h0]; omega

/-- The activations' block: rows of tile `t / 16`, contraction positions of block `t % 4`. -/
theorem xblk_apply (c : Dev nD) (t : Fin cfg0.N) (p kk : Fin 1024) (k : S8192x4096.Idx)
    (h0 : (k 0).val = 1024 * (t.val / 16) + p.val) (h1 : (k 1).val = 1024 * (t.val % 4) + kk.val) :
    xblk m c t (ix2 p kk) = (m ((c : Thread nD τ).loc main_arg0) : S8192x4096.Idx → Elt F .f32) k := by
  have hi := (idx_facts t).1
  unfold xblk iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = (k 0).val; rw [hi.1, h0]; omega
  | ⟨1, _⟩ => show win0_0.index t 1 * 1024 + 1 * kk.val = (k 1).val; rw [hi.2, h1]; omega

/-- The dense weights' block: contraction positions of block `t % 4`, columns of tile `(t / 4) % 4`. -/
theorem wblk_apply (c : Dev nD) (t : Fin cfg0.N) (kk q : Fin 1024) (k : S4096x4096.Idx)
    (h0 : (k 0).val = 1024 * (t.val % 4) + kk.val) (h1 : (k 1).val = 1024 * ((t.val / 4) % 4) + q.val) :
    wblk m c t (ix2 kk q) = (m ((c : Thread nD τ).loc main_arg1) : S4096x4096.Idx → Elt F .f32) k := by
  have hi := (idx_facts t).2.1
  unfold wblk iblk
  rw [View.read_apply]
  show V m c main_arg1 _ = m (c.tc.loc main_arg1) _
  rw [V_main_arg1]
  congr 1
  funext a
  apply Fin.ext
  match a with
  | ⟨0, _⟩ => show win0_1.index t 0 * 1024 + 1 * kk.val = (k 0).val; rw [hi.1, h0]; omega
  | ⟨1, _⟩ => show win0_1.index t 1 * 1024 + 1 * q.val = (k 1).val; rw [hi.2, h1]; omega

/-- The stacked down-projection's block: stacked column `cc` is row `cc % 16` of adapter `cc / 16`. -/
theorem ablk_apply (c : Dev nD) (t : Fin cfg0.N) (kk : Fin 1024) (cc : Fin 128) (k : S8x16x4096.Idx)
    (h0 : (k 0).val = cc.val / 16) (h1 : (k 1).val = cc.val % 16) (h2 : (k 2).val = 1024 * (t.val % 4) + kk.val) :
    ablk m c t (ix2 kk cc) = (m ((c : Thread nD τ).loc main_arg3) : S8x16x4096.Idx → Elt F .f32) k := by
  have hi := (idx_facts t).2.2.1
  have e : (V m c main_v1 : S4096x128.Idx → Elt F .f32) = shapeCast S4096x128 (transpose S4096x8x16 [2, 0, 1] (m ((c : Thread nD τ).loc main_arg3) : S8x16x4096.Idx → Elt F .f32) transposes_S8x16x4096_S4096x8x16_2_0_1) shapeCasts_S4096x8x16_S4096x128 := by
    dsimp only [Gen.V, Gen.hostOps0]; after_results; rfl
  unfold ablk iblk
  rw [View.read_apply]
  show V m c main_v1 _ = m (c.tc.loc main_arg3) _
  rw [e]
  have hk0 := (k 0).isLt
  have hk1 := (k 1).isLt
  refine stackA_apply _ _ k ?_ ?_
  · show win0_2.index t 0 * 1024 + 1 * kk.val = (k 2).val
    rw [hi.1, h2]; omega
  · show win0_2.index t 1 * 128 + 1 * cc.val = (k 0).val * 16 + (k 1).val
    rw [hi.2, h0, h1]; omega

/-- The stacked up-projection's block: stacked row `cc` is column `cc % 16` of adapter `cc / 16`. -/
theorem bblk_apply (c : Dev nD) (t : Fin cfg0.N) (cc : Fin 128) (q : Fin 1024) (k : S8x4096x16.Idx)
    (h0 : (k 0).val = cc.val / 16) (h1 : (k 1).val = 1024 * ((t.val / 4) % 4) + q.val) (h2 : (k 2).val = cc.val % 16) :
    bblk m c t (ix2 cc q) = (m ((c : Thread nD τ).loc main_arg4) : S8x4096x16.Idx → Elt F .f32) k := by
  have hi := (idx_facts t).2.2.2.1
  have e : (V m c main_v3 : S128x4096.Idx → Elt F .f32) = shapeCast S128x4096 (transpose S8x16x4096 [0, 2, 1] (m ((c : Thread nD τ).loc main_arg4) : S8x4096x16.Idx → Elt F .f32) transposes_S8x4096x16_S8x16x4096_0_2_1) shapeCasts_S8x16x4096_S128x4096 := by
    dsimp only [Gen.V, Gen.hostOps0]; after_results; rfl
  unfold bblk iblk
  rw [View.read_apply]
  show V m c main_v3 _ = m (c.tc.loc main_arg4) _
  rw [e]
  refine stackB_apply _ _ k ?_ ?_
  · show win0_3.index t 0 * 128 + 1 * cc.val = (k 0).val * 16 + (k 2).val
    rw [hi.1, h0, h2]; omega
  · show win0_3.index t 1 * 1024 + 1 * q.val = (k 1).val
    rw [hi.2, h1]; omega

/-- The bias block: the columns of tile `(t / 4) % 4`. -/
theorem biasblk_apply (c : Dev nD) (t : Fin cfg0.N) (q : Fin 1024) (k : S4096.Idx)
    (h0 : (k 0).val = 1024 * ((t.val / 4) % 4) + q.val) :
    biasblk m c t (ix2 (0 : Fin 1) q) = (m ((c : Thread nD τ).loc main_arg2) : S4096.Idx → Elt F .f32) k := by
  have hi := (idx_facts t).2.2.2.2.1
  have e : (V m c main_v4 : S1x4096.Idx → Elt F .f32) = shapeCast S1x4096 (m ((c : Thread nD τ).loc main_arg2) : S4096.Idx → Elt F .f32) shapeCasts_S4096_S1x4096 := by
    dsimp only [Gen.V, Gen.hostOps0]; after_results; rfl
  unfold biasblk iblk
  rw [View.read_apply]
  show V m c main_v4 _ = m (c.tc.loc main_arg2) _
  rw [e]
  refine asRow_apply _ _ k ?_
  show win0_4.index t 1 * 1024 + 1 * q.val = (k 0).val
  rw [hi.2, h0]; omega

/-- The tokens' block: the rows of tile `t / 16`. -/
theorem tokblk_apply (c : Dev nD) (t : Fin cfg0.N) (p : Fin 1024) (k : S8192.Idx)
    (h0 : (k 0).val = 1024 * (t.val / 16) + p.val) :
    tokblk m c t (ix2 p (0 : Fin 1)) = (m ((c : Thread nD τ).loc main_arg6) : S8192.Idx → Elt F .i32) k := by
  have hi := (idx_facts t).2.2.2.2.2.1
  have e : (V m c main_v5 : S8192x1.Idx → Elt F .i32) = shapeCast S8192x1 (m ((c : Thread nD τ).loc main_arg6) : S8192.Idx → Elt F .i32) shapeCasts_S8192_S8192x1 := by
    dsimp only [Gen.V, Gen.hostOps0]; after_results; rfl
  unfold tokblk iblk
  rw [View.read_apply]
  show V m c main_v5 _ = m (c.tc.loc main_arg6) _
  rw [e]
  refine asCol_apply _ _ k ?_
  show win0_5.index t 0 * 1024 + 1 * p.val = (k 0).val
  rw [hi.1, h0]; omega

/-- The per-token factors' block: the rows of tile `t / 16`. -/
theorem scalblk_apply (c : Dev nD) (t : Fin cfg0.N) (p : Fin 1024) (k : S8192.Idx)
    (h0 : (k 0).val = 1024 * (t.val / 16) + p.val) :
    scalblk m c t (ix2 p (0 : Fin 1)) = (m ((c : Thread nD τ).loc main_arg5) : S8192.Idx → Elt F .f32) k := by
  have hi := (idx_facts t).2.2.2.2.2.2
  have e : (V m c main_v6 : S8192x1.Idx → Elt F .f32) = shapeCast S8192x1 (m ((c : Thread nD τ).loc main_arg5) : S8192.Idx → Elt F .f32) shapeCasts_S8192_S8192x1 := by
    dsimp only [Gen.V, Gen.hostOps0]; after_results; rfl
  unfold scalblk iblk
  rw [View.read_apply]
  show V m c main_v6 _ = m (c.tc.loc main_arg5) _
  rw [e]
  refine asCol_apply _ _ k ?_
  show win0_6.index t 0 * 1024 + 1 * p.val = (k 0).val
  rw [hi.1, h0]; omega

end Cert.KernelIdeal.Blocks

end
-- ==== Proof.KernelFold.lean ====
/-
  The two accumulators after any grid step, on the extended reals.  The four steps `4u, …, 4u + 3` of one output tile
  share the tile and walk the contraction blocks `0, …, 3`.  The first zeroes the accumulators and adds its block
  product; each later one adds its own.  So after step `t` an accumulator's entry is zero plus the sum, over the steps
  of the tile's run up to `t`, of that step's block product at the entry: a sum over 1024 contraction positions of an
  activation entry times a weight entry (dense) or a stacked down-projection entry (down).
-/
import proofs.«176441_j8899172237474_1_alg».proof.Proof.Gen.KernelIdeal.Value
import proofs.«176441_j8899172237474_1_alg».proof.Proof.KernelPieces
import proofs.«176441_j8899172237474_1_alg».proof.Proof.KernelPayloads
import proofs.«176441_j8899172237474_1_alg».proof.Proof.KernelBlocks
import Idealize.ShloMosaic.Lib.Pipeline.Value

noncomputable section

open scoped BigOperators
open Idealize.ShloMosaic Idealize.ShloMosaic.TcCoe Idealize.SL.Sem

namespace Cert.KernelIdeal.Fold

open Cert.KernelIdeal Cert.KernelIdeal.Gen Cert.KernelIdeal.Value Cert.KernelIdeal.Blocks Idealize.ShloMosaic.ValueIdx

variable (m : (ℓ : Loc nD τ sig) → Buf (Elt Ideal) ℓ)

/-- Step `n`'s block product of activations and dense weights at an entry of the tile (zero past the grid). -/
def denseTerm (c : Dev nD) (n : ℕ) (y : S1024x1024.Idx) : EReal :=
  if h : n < cfg0.N then ∑ kk : Fin 1024, xblk m c ⟨n, h⟩ (ix2 (y 0) kk) * wblk m c ⟨n, h⟩ (ix2 kk (y 1)) else 0

/-- Step `n`'s block product of activations and stacked down-projection at an entry (zero past the grid). -/
def downTerm (c : Dev nD) (n : ℕ) (y : S1024x128.Idx) : EReal :=
  if h : n < cfg0.N then ∑ kk : Fin 1024, xblk m c ⟨n, h⟩ (ix2 (y 0) kk) * ablk m c ⟨n, h⟩ (ix2 kk (y 1)) else 0

/-- The dense accumulator after step `t`: zero plus the block products of the tile's run up to `t`. -/
theorem dense_after (c : Dev nD) (t : Fin cfg0.N) (y : S1024x1024.Idx) :
    (outsAt0 m c t.val t.isLt).2.1 y
      = 0 + ∑ s ∈ Finset.range (t.val % 4 + 1), denseTerm m c (4 * (t.val / 4) + s) y := by
  rw [soutsAt0_0_eq]
  refine Pipeline.accAt_add_apply (ι := S1024x1024.Idx) (β := EReal)
    (fun n h => scAt0_0 m c n h (VS0_0.read (Elt Ideal) VS0_0.junk)) (scAt0_0 m c) (fun _ => 0) (denseTerm m c)
    (4 * (t.val / 4)) 3 ?_ ?_ (t.val % 4) (by omega) _ y
  · intro h i
    have hb0 : (4 * (t.val / 4)) % 4 = 0 := by omega
    have hb3 : ¬(4 * (t.val / 4)) % 4 = 3 := by omega
    obtain ⟨p, q, rfl⟩ : ∃ (p : Fin 1024) (q : Fin 1024), i = ix2 p q := ⟨i 0, i 1, eq_ix2 i⟩
    show scAt0_0 m c (4 * (t.val / 4)) h _ (ix2 p q) = _
    unfold scAt0_0
    rw [dif_pos hb0, dif_neg hb3, Pieces.dense_first, Payloads.accumulate_base, Payloads.zero_block]
    unfold denseTerm
    rw [dif_pos h]
  · intro n h acc i h1 h2
    have hn0 : ¬n % 4 = 0 := by omega
    obtain ⟨p, q, rfl⟩ : ∃ (p : Fin 1024) (q : Fin 1024), i = ix2 p q := ⟨i 0, i 1, eq_ix2 i⟩
    unfold scAt0_0
    rw [dif_neg hn0]
    by_cases hn3 : n % 4 = 3
    · rw [dif_pos hn3, Pieces.dense_last, Payloads.accumulate_base]
      unfold denseTerm
      rw [dif_pos h]
    · rw [dif_neg hn3, Pieces.dense_middle, Payloads.accumulate_base]
      unfold denseTerm
      rw [dif_pos h]

/-- The down-projection accumulator after step `t`, likewise. -/
theorem down_after (c : Dev nD) (t : Fin cfg0.N) (y : S1024x128.Idx) :
    (outsAt0 m c t.val t.isLt).2.2 y
      = 0 + ∑ s ∈ Finset.range (t.val % 4 + 1), downTerm m c (4 * (t.val / 4) + s) y := by
  rw [soutsAt0_1_eq]
  refine Pipeline.accAt_add_apply (ι := S1024x128.Idx) (β := EReal)
    (fun n h => scAt0_1 m c n h (VS0_1.read (Elt Ideal) VS0_1.junk)) (scAt0_1 m c) (fun _ => 0) (downTerm m c)
    (4 * (t.val / 4)) 3 ?_ ?_ (t.val % 4) (by omega) _ y
  · intro h i
    have hb0 : (4 * (t.val / 4)) % 4 = 0 := by omega
    have hb3 : ¬(4 * (t.val / 4)) % 4 = 3 := by omega
    obtain ⟨p, q, rfl⟩ : ∃ (p : Fin 1024) (q : Fin 128), i = ix2 p q := ⟨i 0, i 1, eq_ix2 i⟩
    show scAt0_1 m c (4 * (t.val / 4)) h _ (ix2 p q) = _
    unfold scAt0_1
    rw [dif_pos hb0, dif_neg hb3, Pieces.down_first, Payloads.accumulate_down, Payloads.zero_cols]
    unfold downTerm
    rw [dif_pos h]
  · intro n h acc i h1 h2
    have hn0 : ¬n % 4 = 0 := by omega
    obtain ⟨p, q, rfl⟩ : ∃ (p : Fin 1024) (q : Fin 128), i = ix2 p q := ⟨i 0, i 1, eq_ix2 i⟩
    unfold scAt0_1
    rw [dif_neg hn0]
    by_cases hn3 : n % 4 = 3
    · rw [dif_pos hn3, Pieces.down_last, Payloads.accumulate_down]
      unfold downTerm
      rw [dif_pos h]
    · rw [dif_neg hn3, Pieces.down_middle, Payloads.accumulate_down]
      unfold downTerm
      rw [dif_pos h]

end Cert.KernelIdeal.Fold

end
-- ==== Proof.KernelValue.lean ====
/-
  The kernel's result array is the specification.  An output tile is written once, by the last of its four grid
  steps; at that step both accumulators are complete, so an entry of the tile is
      (Σ over the four contraction blocks of the block products + bias)
        + Σ over the 128 stacked adapter columns of (down-projection · token factor · [column's adapter = token]) · up-projection.
  The four blocks of 1024 make the contraction over 4096; the 128 stacked columns are the eight adapters' sixteen
  rows, and the 0/1 factor keeps exactly the token's adapter.  Every entry of the result lies in exactly one tile.
-/
import proofs.«176441_j8899172237474_1_alg».proof.Proof.Gen.KernelIdeal.Value
import proofs.«176441_j8899172237474_1_alg».proof.Proof.AdapterSpec
import proofs.«176441_j8899172237474_1_alg».proof.Proof.KernelPieces
import proofs.«176441_j8899172237474_1_alg».proof.Proof.KernelPayloads
import proofs.«176441_j8899172237474_1_alg».proof.Proof.KernelBlocks
import proofs.«176441_j8899172237474_1_alg».proof.Proof.KernelFold
import Idealize.ShloMosaic.Lib.Pipeline.Value

noncomputable section

open scoped BigOperators
open Idealize.ShloMosaic Idealize.ShloMosaic.TcCoe Idealize.SL.Sem

namespace Cert.KernelIdeal.KValue

open Cert.KernelIdeal Cert.KernelIdeal.Gen Cert.KernelIdeal.Value Cert.KernelIdeal.Blocks Cert.KernelIdeal.Fold
open Idealize.ShloMosaic.ValueIdx
open Idealize.ShloMosaic.Pipeline (Dat)

/-! ## Entries named by natural numbers (zero outside the array) -/

/-- An entry of a matrix by natural coordinates. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0

theorem at2_val {n0 n1 : ℕ} (x : (⟨2, ![n0, n1]⟩ : Shape).Idx → EReal) (a : Fin n0) (b : Fin n1) :
    at2 x a.val b.val = x (ix2 a b) := by
  unfold at2; rw [dif_pos ⟨a.isLt, b.isLt⟩]

/-- An entry of a rank-3 array by natural coordinates. -/
def at3 {n0 n1 n2 : ℕ} (x : (⟨3, ![n0, n1, n2]⟩ : Shape).Idx → EReal) (a b d : ℕ) : EReal :=
  if h : a < n0 ∧ b < n1 ∧ d < n2 then x (ix3 ⟨a, h.1⟩ ⟨b, h.2.1⟩ ⟨d, h.2.2⟩) else 0

theorem at3_val {n0 n1 n2 : ℕ} (x : (⟨3, ![n0, n1, n2]⟩ : Shape).Idx → EReal) (a : Fin n0) (b : Fin n1) (d : Fin n2) :
    at3 x a.val b.val d.val = x (ix3 a b d) := by
  unfold at3; rw [dif_pos ⟨a.isLt, b.isLt, d.isLt⟩]

variable (m : (ℓ : Loc nD τ sig) → Buf (Elt Ideal) ℓ)

/-- The program's arguments on one device, as arrays of extended reals and of words. -/
abbrev argX (c : Dev nD) : (⟨2, ![8192, 4096]⟩ : Shape).Idx → EReal := m ((c : Thread nD τ).loc main_arg0)
abbrev argW (c : Dev nD) : (⟨2, ![4096, 4096]⟩ : Shape).Idx → EReal := m ((c : Thread nD τ).loc main_arg1)
abbrev argBias (c : Dev nD) : (⟨1, ![4096]⟩ : Shape).Idx → EReal := m ((c : Thread nD τ).loc main_arg2)
abbrev argA (c : Dev nD) : (⟨3, ![8, 16, 4096]⟩ : Shape).Idx → EReal := m ((c : Thread nD τ).loc main_arg3)
abbrev argB (c : Dev nD) : (⟨3, ![8, 4096, 16]⟩ : Shape).Idx → EReal := m ((c : Thread nD τ).loc main_arg4)
abbrev argScal (c : Dev nD) : (⟨1, ![8192]⟩ : Shape).Idx → EReal := m ((c : Thread nD τ).loc main_arg5)
abbrev argTok (c : Dev nD) : (⟨1, ![8192]⟩ : Shape).Idx → BitVec 32 := m ((c : Thread nD τ).loc main_arg6)

/-! ## The blocks of a step, by natural coordinates -/

theorem hN : cfg0.N = 128 := N_0

theorem xblk_at (c : Dev nD) (n : ℕ) (h : n < cfg0.N) (p kk : Fin 1024) :
    xblk m c ⟨n, h⟩ (ix2 p kk) = at2 (argX m c) (1024 * (n / 16) + p.val) (1024 * (n % 4) + kk.val) := by
  have hn : n < 128 := lt_of_lt_of_eq h hN
  unfold at2
  rw [dif_pos ⟨by have := p.isLt; omega, by have := kk.isLt; omega⟩]
  exact xblk_apply m c ⟨n, h⟩ p kk _ rfl rfl

theorem wblk_at (c : Dev nD) (n : ℕ) (h : n < cfg0.N) (kk q : Fin 1024) :
    wblk m c ⟨n, h⟩ (ix2 kk q) = at2 (argW m c) (1024 * (n % 4) + kk.val) (1024 * ((n / 4) % 4) + q.val) := by
  unfold at2
  rw [dif_pos ⟨by have := kk.isLt; omega, by have := q.isLt; omega⟩]
  exact wblk_apply m c ⟨n, h⟩ kk q _ rfl rfl

theorem ablk_at (c : Dev nD) (n : ℕ) (h : n < cfg0.N) (kk : Fin 1024) (cc : Fin 128) :
    ablk m c ⟨n, h⟩ (ix2 kk cc) = at3 (argA m c) (cc.val / 16) (cc.val % 16) (1024 * (n % 4) + kk.val) := by
  unfold at3
  rw [dif_pos ⟨by have := cc.isLt; omega, by omega, by have := kk.isLt; omega⟩]
  exact ablk_apply m c ⟨n, h⟩ kk cc _ rfl rfl rfl

theorem bblk_at (c : Dev nD) (n : ℕ) (h : n < cfg0.N) (cc : Fin 128) (q : Fin 1024) :
    bblk m c ⟨n, h⟩ (ix2 cc q) = at3 (argB m c) (cc.val / 16) (1024 * ((n / 4) % 4) + q.val) (cc.val % 16) := by
  unfold at3
  rw [dif_pos ⟨by have := cc.isLt; omega, by have := q.isLt; omega, by omega⟩]
  exact bblk_apply m c ⟨n, h⟩ cc q _ rfl rfl rfl

/-! ## The completed accumulators at the last step of a tile -/

/-- The output tile a last step stores, over the two accumulators as that step leaves them. -/
theorem tile_eq (c : Dev nD) (t : Fin cfg0.N) (h0 : ¬t.val % 4 = 0) (h3 : t.val % 4 = 3) :
    (outsAt0 m c t.val t.isLt).1
      = k0_pay6 (k0_pay7 (outsAt0 m c t.val t.isLt).2.2 (scalblk m c t) (tokblk m c t) (bblk m c t))
          (outsAt0 m c t.val t.isLt).2.1 (biasblk m c t) := by
  rw [outsAt0_C m c t h0 h3]
  dsimp only
  rw [Pieces.tile_last, Pieces.dense_last, Pieces.down_last]

/-- The completed dense accumulator: the contraction over all 4096 positions. -/
theorem dense_entry (c : Dev nD) (t : Fin cfg0.N) (h3 : t.val % 4 = 3) (p q : Fin 1024) :
    (outsAt0 m c t.val t.isLt).2.1 (ix2 p q)
      = ∑ j : Fin 4096, at2 (argX m c) (1024 * (t.val / 16) + p.val) j.val
          * at2 (argW m c) j.val (1024 * ((t.val / 4) % 4) + q.val) := by
  have ht : t.val < 128 := lt_of_lt_of_eq t.isLt hN
  rw [dense_after, h3, zero_add]
  have e : ∀ s ∈ Finset.range (3 + 1), denseTerm m c (4 * (t.val / 4) + s) (ix2 p q)
      = ∑ kk : Fin 1024, (fun j => at2 (argX m c) (1024 * (t.val / 16) + p.val) j
          * at2 (argW m c) j (1024 * ((t.val / 4) % 4) + q.val)) (1024 * s + kk.val) := by
    intro s hs
    have hs' : s < 4 := Finset.mem_range.mp hs
    have hn : 4 * (t.val / 4) + s < cfg0.N := lt_of_lt_of_eq (by omega : 4 * (t.val / 4) + s < 128) hN.symm
    unfold denseTerm
    rw [dif_pos hn]
    refine Finset.sum_congr rfl fun kk _ => ?_
    show xblk m c ⟨_, hn⟩ (ix2 p kk) * wblk m c ⟨_, hn⟩ (ix2 kk q) = _
    rw [xblk_at, wblk_at]
    have e1 : (4 * (t.val / 4) + s) / 16 = t.val / 16 := by omega
    have e2 : (4 * (t.val / 4) + s) % 4 = s := by omega
    have e3 : (4 * (t.val / 4) + s) / 4 % 4 = t.val / 4 % 4 := by omega
    rw [e1, e2, e3]
  rw [Finset.sum_congr rfl e]
  exact Cert.Adapter.sum_kblocks (fun j => at2 (argX m c) (1024 * (t.val / 16) + p.val) j
    * at2 (argW m c) j (1024 * ((t.val / 4) % 4) + q.val))

/-- The completed down-projection accumulator at stacked column `cc`: the contraction over all 4096 positions
    against row `cc % 16` of adapter `cc / 16`. -/
theorem down_entry (c : Dev nD) (t : Fin cfg0.N) (h3 : t.val % 4 = 3) (p : Fin 1024) (cc : Fin 128) :
    (outsAt0 m c t.val t.isLt).2.2 (ix2 p cc)
      = ∑ j : Fin 4096, at2 (argX m c) (1024 * (t.val / 16) + p.val) j.val
          * at3 (argA m c) (cc.val / 16) (cc.val % 16) j.val := by
  have ht : t.val < 128 := lt_of_lt_of_eq t.isLt hN
  rw [down_after, h3, zero_add]
  have e : ∀ s ∈ Finset.range (3 + 1), downTerm m c (4 * (t.val / 4) + s) (ix2 p cc)
      = ∑ kk : Fin 1024, (fun j => at2 (argX m c) (1024 * (t.val / 16) + p.val) j
          * at3 (argA m c) (cc.val / 16) (cc.val % 16) j) (1024 * s + kk.val) := by
    intro s hs
    have hs' : s < 4 := Finset.mem_range.mp hs
    have hn : 4 * (t.val / 4) + s < cfg0.N := lt_of_lt_of_eq (by omega : 4 * (t.val / 4) + s < 128) hN.symm
    unfold downTerm
    rw [dif_pos hn]
    refine Finset.sum_congr rfl fun kk _ => ?_
    show xblk m c ⟨_, hn⟩ (ix2 p kk) * ablk m c ⟨_, hn⟩ (ix2 kk cc) = _
    rw [xblk_at, ablk_at]
    have e1 : (4 * (t.val / 4) + s) / 16 = t.val / 16 := by omega
    have e2 : (4 * (t.val / 4) + s) % 4 = s := by omega
    rw [e1, e2]
  rw [Finset.sum_congr rfl e]
  exact Cert.Adapter.sum_kblocks (fun j => at2 (argX m c) (1024 * (t.val / 16) + p.val) j
    * at3 (argA m c) (cc.val / 16) (cc.val % 16) j)

/-! ## An entry of an output tile -/

/-- An entry of the tile a last step stores is the specification at that entry of the result array. -/
theorem tile_value (c : Dev nD) (t : Fin cfg0.N) (h3 : t.val % 4 = 3) (p q : Fin 1024)
    (k : (⟨2, ![8192, 4096]⟩ : Shape).Idx)
    (hk0 : (k 0).val = 1024 * (t.val / 16) + p.val) (hk1 : (k 1).val = 1024 * ((t.val / 4) % 4) + q.val) :
    (outsAt0 m c t.val t.isLt).1 (ix2 p q)
      = Cert.Adapter.result (argX m c) (argW m c) (argBias m c) (argA m c) (argB m c) (argScal m c) (argTok m c) k := by
  have h0 : ¬t.val % 4 = 0 := by omega
  have hb : ∀ cc : Fin 128, bblk m c t (ix2 cc q)
      = at3 (argB m c) (cc.val / 16) (1024 * ((t.val / 4) % 4) + q.val) (cc.val % 16) := fun cc => bblk_at m c t.val t.isLt cc q
  have hbias : biasblk m c t (ix2 (0 : Fin 1) q) = argBias m c (ix1 (k 1)) := biasblk_apply m c t q (ix1 (k 1)) hk1
  have hscal : scalblk m c t (ix2 p (0 : Fin 1)) = argScal m c (ix1 (k 0)) := scalblk_apply m c t p (ix1 (k 0)) hk0
  have htok : tokblk m c t (ix2 p (0 : Fin 1)) = argTok m c (ix1 (k 0)) := tokblk_apply m c t p (ix1 (k 0)) hk0
  rw [tile_eq m c t h0 h3, Payloads.epilogue, Payloads.routed_up, dense_entry m c t h3, hbias, hscal, htok]
  simp only [down_entry m c t h3, hb]
  rw [← hk0, ← hk1]
  have hx : ∀ j : Fin 4096, at2 (argX m c) (k 0).val j.val = argX m c (ix2 (k 0) j) := fun j => at2_val (argX m c) (k 0) j
  have hw : ∀ j : Fin 4096, at2 (argW m c) j.val (k 1).val = argW m c (ix2 j (k 1)) := fun j => at2_val (argW m c) j (k 1)
  simp only [hx, hw]
  unfold Cert.Adapter.result Cert.Adapter.base Cert.Adapter.routed
  refine congrArg₂ (· + ·) rfl ?_
  -- the 128 stacked columns, adapter by adapter
  let g : ℕ → EReal := fun cc =>
    (((∑ j : Fin 4096, argX m c (ix2 (k 0) j) * at3 (argA m c) (cc / 16) (cc % 16) j.val) * argScal m c (ix1 (k 0)))
      * (if argTok m c (ix1 (k 0)) = BitVec.ofNat 32 (cc / 16) then (1 : EReal) else 0))
      * at3 (argB m c) (cc / 16) (k 1).val (cc % 16)
  show ∑ cc : Fin 128, g cc.val = _
  rw [Cert.Adapter.sum_adapters g]
  refine Finset.sum_congr rfl fun e _ => ?_
  have hr : ∀ r : Fin 16, g (16 * e.val + r.val)
      = (Cert.Adapter.down (argX m c) (argA m c) (argScal m c) e (k 0) r
          * (if argTok m c (ix1 (k 0)) = BitVec.ofNat 32 e.val then (1 : EReal) else 0)) * argB m c (ix3 e (k 1) r) := by
    intro r
    have e1 : (16 * e.val + r.val) / 16 = e.val := by have := r.isLt; omega
    have e2 : (16 * e.val + r.val) % 16 = r.val := by have := r.isLt; omega
    show (((∑ j : Fin 4096, argX m c (ix2 (k 0) j) * at3 (argA m c) ((16 * e.val + r.val) / 16) ((16 * e.val + r.val) % 16) j.val) * argScal m c (ix1 (k 0)))
      * (if argTok m c (ix1 (k 0)) = BitVec.ofNat 32 ((16 * e.val + r.val) / 16) then (1 : EReal) else 0))
      * at3 (argB m c) ((16 * e.val + r.val) / 16) (k 1).val ((16 * e.val + r.val) % 16) = _
    rw [e1, e2]
    have hA : ∀ j : Fin 4096, at3 (argA m c) e.val r.val j.val = argA m c (ix3 e r j) := fun j => at3_val (argA m c) e r j
    have hB : at3 (argB m c) e.val (k 1).val r.val = argB m c (ix3 e (k 1) r) := at3_val (argB m c) e (k 1) r
    simp only [hA, hB]
    rfl
  simp only [hr]
  exact Cert.Adapter.sum_mul_indicator _ _ _

/-! ## From tiles to the array -/

/-- Step `t` writes the tile of row tile `t / 16` and column tile `(t / 4) % 4`. -/
theorem tile_of_step : ∀ t : Fin cfg0.N, win0_7.index t (0 : Fin 2) = t.val / 16 ∧ win0_7.index t (1 : Fin 2) = t.val / 4 % 4 :=
  (by decide +kernel : ∀ t : Fin grid0.N, _)

/-- What a writing step writes back is its tile of the specification's array. -/
theorem flushed_eq (c : Dev nD) (t : Fin cfg0.N) (hf : (cfg0.win 7).flush t = true) :
    (dats m 0 c).flushed 7 t = ((cfg0.win 7).blk t).view.read (Elt Ideal)
      (Cert.Adapter.result (argX m c) (argW m c) (argBias m c) (argA m c) (argB m c) (argScal m c) (argTok m c)) := by
  have h3 : t.val % 4 = 3 := (flush0_7 t).mp hf
  obtain ⟨i0, i1⟩ := tile_of_step t
  rw [flushed7]
  funext j
  obtain ⟨p, q, rfl⟩ : ∃ (p : Fin 1024) (q : Fin 1024), j = ix2 p q := ⟨j 0, j 1, eq_ix2 j⟩
  show (outsAt0 m c t.val t.isLt).1 (ix2 p q)
    = Cert.Adapter.result (argX m c) (argW m c) (argBias m c) (argA m c) (argB m c) (argScal m c) (argTok m c)
        (((cfg0.win 7).blk t).view.emb (ix2 p q))
  refine tile_value m c t h3 p q _ ?_ ?_
  · show win0_7.index t (0 : Fin 2) * 1024 + 1 * p.val = _
    rw [i0]; omega
  · show win0_7.index t (1 : Fin 2) * 1024 + 1 * q.val = _
    rw [i1]; omega

/-- An entry of the result array lies in step `t`'s tile iff each coordinate lies in the tile's range. -/
theorem mem_tile (t : Fin cfg0.N) (i : S8192x4096.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v7).slice (win0_7.rect t)).set ↔ _
  rw [View.set_slice_whole, Rect.mem_set_unit]
  exact Iff.rfl

/-- Every entry of the result array lies in the tile some writing step writes: entry (s, o) in that of the last step of
    row tile `s / 1024` and column tile `o / 1024`. -/
theorem covered (i : S8192x4096.Idx) :
    ∃ t : Fin cfg0.N, (cfg0.win 7).flush t = true ∧ i ∈ ((cfg0.win 7).blk t).view.set := by
  have hi0 : (i 0).val < 8192 := (i 0).isLt
  have hi1 : (i 1).val < 4096 := (i 1).isLt
  obtain ⟨n, hnd⟩ : ∃ n : ℕ, n = 16 * ((i 0).val / 1024) + 4 * ((i 1).val / 1024) + 3 := ⟨_, rfl⟩
  have hn : n < cfg0.N := lt_of_lt_of_eq (by omega : n < 128) hN.symm
  have hf : (cfg0.win 7).flush ⟨n, hn⟩ = true := (flush0_7 ⟨n, hn⟩).mpr (by show n % 4 = 3; omega)
  refine ⟨⟨n, hn⟩, hf, ?_⟩
  rw [mem_tile]
  obtain ⟨i0, i1⟩ := tile_of_step ⟨n, hn⟩
  have i0' : win0_7.index ⟨n, hn⟩ (0 : Fin 2) = n / 16 := i0
  have i1' : win0_7.index ⟨n, hn⟩ (1 : Fin 2) = n / 4 % 4 := i1
  intro a
  match a with
  | ⟨0, _⟩ =>
    show win0_7.index ⟨n, hn⟩ (0 : Fin 2) * 1024 ≤ (i 0).val ∧ (i 0).val < win0_7.index ⟨n, hn⟩ (0 : Fin 2) * 1024 + 1024
    rw [i0']; omega
  | ⟨1, _⟩ =>
    show win0_7.index ⟨n, hn⟩ (1 : Fin 2) * 1024 ≤ (i 1).val ∧ (i 1).val < win0_7.index ⟨n, hn⟩ (1 : Fin 2) * 1024 + 1024
    rw [i1']; omega

/-- The result array after the run is the specification's. -/
theorem final (c : Dev nD) : (dats m 0 c).arrAt 7 cfg0.N
    = Cert.Adapter.result (argX m c) (argW m c) (argBias m c) (argA m c) (argB m c) (argScal m c) (argTok m c) :=
  (dats m 0 c).arrAt_eq_of_cover 7 _ (fun t hf => flushed_eq m c t hf) covered

/-- The run, read: the result array at the specification of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v7)
        = Cert.Adapter.result (argX m c) (argW m c) (argBias m c) (argA m c) (argB m c) (argScal m c) (argTok m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.KValue

end
-- ==== Proof.RefAdapters.lean ====
/-
  The reference's eight adapter terms, one entry at a time.  For adapter `e` the reference slices the adapter's two
  matrices out of the stacks, projects every row of the activations down (a contraction over 4096), scales each row by its
  token's factor, projects up (a contraction over the rank, 16), and keeps the row where the row's token equals `e`,
  putting zero elsewhere.  Read at row `s` and column `o`, that is the specification's `up` under the test
  `tok[s] = e`.
-/
import proofs.«176441_j8899172237474_1_alg».proof.Proof.Gen.ReferenceIdeal.Read
import proofs.«176441_j8899172237474_1_alg».proof.Proof.AdapterSpec
import Idealize.ShloMosaic.Lib.ValueIdx
import Idealize.ShloMosaic.Lib.Affine
import Idealize.ShloMosaic.Lib.Pipeline.Value
import Idealize.ShloMosaic.PureOps.Ideal.Laws

noncomputable section

open scoped BigOperators
open Idealize.ShloMosaic Idealize.ShloMosaic.TcCoe Idealize.SL.Sem

namespace Cert.ReferenceIdeal.RefValue

open Cert.ReferenceIdeal Cert.ReferenceIdeal.Read Idealize.ShloMosaic.ValueIdx

/-- A select on the bit of an equality test of two words is an `if` on the equality. -/
theorem select_cmpi_eq {α : Type} (a b : BitVec 32) (u v : α) :
    Scalar.select (IntOp.cmpi .eq a b) u v = if a = b then u else v := by
  by_cases h : a = b
  · rw [if_pos h, IntOp.cmpi_eq.mpr h, select_one]
  · rw [if_neg h, eq_zero_of_ne_one (fun hc => h (IntOp.cmpi_eq.mp hc)), select_zero]

/-- The adapter term with every stage read at an index, for any adapter `e`.  The stages compose to five index
    functions: where the token is read, where the activations are read, where the adapter's first matrix is read (through
    a slice at offset `e`, a reshape of `1 × 16 × 4096` to `16 × 4096` and a transposition), where the scale factor
    is read, and where the second matrix is read (likewise, `1 × 4096 × 16` to `4096 × 16`).  Given their coordinates in
    the form the stages produce them (the reshapes as quotient and remainder of the flat offset), they are the
    specification's coordinates, the compared word is `e`, the zero constant is `0`, and the selected double
    contraction is the specification's `up` under the test `tok[s] = e`. -/
theorem adapter_term (e : Fin 8) (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal))
    (s : Fin 8192) (o : Fin 4096) (c : BitVec 32) (ti : S8192.Idx) (xi : Fin 16 → Fin 4096 → S8192x4096.Idx)
    (ai : Fin 16 → Fin 4096 → S8x16x4096.Idx) (si : Fin 16 → S8192.Idx) (bi : Fin 16 → S8x4096x16.Idx)
    (hc : c = BitVec.ofNat 32 e.val) (ht : (ti 0).val = s.val)
    (hx : ∀ r k, (xi r k 0).val = s.val ∧ (xi r k 1).val = k.val)
    (ha : ∀ r k, (ai r k 0).val = e.val ∧ (ai r k 1).val = (r.val * 4096 + k.val) / 4096 % 16
      ∧ (ai r k 2).val = (r.val * 4096 + k.val) % 4096)
    (hs : ∀ r, (si r 0).val = s.val)
    (hb : ∀ r : Fin 16, (bi r 0).val = e.val ∧ (bi r 1).val = (o.val * 16 + r.val) / 16 % 4096
      ∧ (bi r 2).val = (o.val * 16 + r.val) % 16) :
    Scalar.select (IntOp.cmpi .eq (x6 ti) c)
        (∑ r : Fin 16, (∑ k : Fin 4096, x0 (xi r k) * x3 (ai r k)) * x5 (si r) * x4 (bi r))
        (FloatOps.ofBits (F := Ideal) .f32 0x00000000#32)
      = if x6 (ix1 s) = BitVec.ofNat 32 e.val then Cert.Adapter.up x0 x3 x4 x5 e s o else 0 := by
  have ht' : ti = ix1 s := funext fun a => Fin.ext (by match a with | ⟨0, _⟩ => exact ht)
  have hx' : ∀ r k, xi r k = ix2 s k := fun r k => funext fun a => Fin.ext (by
    match a with
    | ⟨0, _⟩ => exact (hx r k).1
    | ⟨1, _⟩ => exact (hx r k).2)
  have ha' : ∀ r k, ai r k = ix3 e r k := fun r k => funext fun a => Fin.ext (by
    match a with
    | ⟨0, _⟩ => exact (ha r k).1
    | ⟨1, _⟩ => exact (ha r k).2.1.trans (show (r.val * 4096 + k.val) / 4096 % 16 = r.val by omega)
    | ⟨2, _⟩ => exact (ha r k).2.2.trans (show (r.val * 4096 + k.val) % 4096 = k.val by omega))
  have hs' : ∀ r, si r = ix1 s := fun r => funext fun a => Fin.ext (by match a with | ⟨0, _⟩ => exact hs r)
  have hb' : ∀ r, bi r = ix3 e o r := fun r => funext fun a => Fin.ext (by
    match a with
    | ⟨0, _⟩ => exact (hb r).1
    | ⟨1, _⟩ => exact (hb r).2.1.trans (show (o.val * 16 + r.val) / 16 % 4096 = o.val by omega)
    | ⟨2, _⟩ => exact (hb r).2.2.trans (show (o.val * 16 + r.val) % 16 = r.val by omega))
  subst hc ht'
  simp only [hx', ha', hs', hb']
  rw [select_cmpi_eq, Ideal.ofBits_def, Ideal.ofBits_zero_f32]
  rfl

/-- Adapter 0's term at an entry. -/
theorem adapter0_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (i : S8192x4096.Idx) :
    val_main_v19 (F := Ideal) x0 x3 x4 x5 x6 i
      = if x6 (ix1 (i 0)) = BitVec.ofNat 32 (0 : Fin 8).val then Cert.Adapter.up x0 x3 x4 x5 (0 : Fin 8) (i 0) (i 1) else 0 := by
  rw [val_main_v19_apply, val_main_call0_v1_apply, val_main_v18_apply, val_main_v17_apply, val_main_v16_apply, val_main_c_apply,
    val_main_call0_v2_apply, val_main_call0_v0_apply, val_main_cst_0_apply, val_main_v15_apply]
  simp only [val_main_v11_apply, val_main_v8_apply, val_main_v7_apply, val_main_v6_apply, val_main_v5_apply,
    val_main_v10_apply, val_main_v9_apply, val_main_v14_apply, val_main_v13_apply, val_main_v12_apply, Ideal.mulf_def]
  exact adapter_term 0 x0 x3 x4 x5 x6 (i 0) (i 1) _ _ _ _ _ _ rfl rfl (fun _ _ => ⟨rfl, rfl⟩)
    (fun _ _ => ⟨rfl, rfl, rfl⟩) (fun _ => rfl) (fun _ => ⟨rfl, rfl, rfl⟩)

/-- Adapter 1's term at an entry. -/
theorem adapter1_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (i : S8192x4096.Idx) :
    val_main_v35 (F := Ideal) x0 x3 x4 x5 x6 i
      = if x6 (ix1 (i 0)) = BitVec.ofNat 32 (1 : Fin 8).val then Cert.Adapter.up x0 x3 x4 x5 (1 : Fin 8) (i 0) (i 1) else 0 := by
  rw [val_main_v35_apply, val_main_call1_v1_apply, val_main_v34_apply, val_main_v33_apply, val_main_v32_apply, val_main_c_1_apply,
    val_main_call1_v2_apply, val_main_call1_v0_apply, val_main_cst_2_apply, val_main_v31_apply]
  simp only [val_main_v27_apply, val_main_v24_apply, val_main_v23_apply, val_main_v22_apply, val_main_v21_apply,
    val_main_v26_apply, val_main_v25_apply, val_main_v30_apply, val_main_v29_apply, val_main_v28_apply, Ideal.mulf_def]
  exact adapter_term 1 x0 x3 x4 x5 x6 (i 0) (i 1) _ _ _ _ _ _ rfl rfl (fun _ _ => ⟨rfl, rfl⟩)
    (fun _ _ => ⟨rfl, rfl, rfl⟩) (fun _ => rfl) (fun _ => ⟨rfl, rfl, rfl⟩)

/-- Adapter 2's term at an entry. -/
theorem adapter2_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (i : S8192x4096.Idx) :
    val_main_v51 (F := Ideal) x0 x3 x4 x5 x6 i
      = if x6 (ix1 (i 0)) = BitVec.ofNat 32 (2 : Fin 8).val then Cert.Adapter.up x0 x3 x4 x5 (2 : Fin 8) (i 0) (i 1) else 0 := by
  rw [val_main_v51_apply, val_main_call2_v1_apply, val_main_v50_apply, val_main_v49_apply, val_main_v48_apply, val_main_c_3_apply,
    val_main_call2_v2_apply, val_main_call2_v0_apply, val_main_cst_4_apply, val_main_v47_apply]
  simp only [val_main_v43_apply, val_main_v40_apply, val_main_v39_apply, val_main_v38_apply, val_main_v37_apply,
    val_main_v42_apply, val_main_v41_apply, val_main_v46_apply, val_main_v45_apply, val_main_v44_apply, Ideal.mulf_def]
  exact adapter_term 2 x0 x3 x4 x5 x6 (i 0) (i 1) _ _ _ _ _ _ rfl rfl (fun _ _ => ⟨rfl, rfl⟩)
    (fun _ _ => ⟨rfl, rfl, rfl⟩) (fun _ => rfl) (fun _ => ⟨rfl, rfl, rfl⟩)

/-- Adapter 3's term at an entry. -/
theorem adapter3_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (i : S8192x4096.Idx) :
    val_main_v67 (F := Ideal) x0 x3 x4 x5 x6 i
      = if x6 (ix1 (i 0)) = BitVec.ofNat 32 (3 : Fin 8).val then Cert.Adapter.up x0 x3 x4 x5 (3 : Fin 8) (i 0) (i 1) else 0 := by
  rw [val_main_v67_apply, val_main_call3_v1_apply, val_main_v66_apply, val_main_v65_apply, val_main_v64_apply, val_main_c_5_apply,
    val_main_call3_v2_apply, val_main_call3_v0_apply, val_main_cst_6_apply, val_main_v63_apply]
  simp only [val_main_v59_apply, val_main_v56_apply, val_main_v55_apply, val_main_v54_apply, val_main_v53_apply,
    val_main_v58_apply, val_main_v57_apply, val_main_v62_apply, val_main_v61_apply, val_main_v60_apply, Ideal.mulf_def]
  exact adapter_term 3 x0 x3 x4 x5 x6 (i 0) (i 1) _ _ _ _ _ _ rfl rfl (fun _ _ => ⟨rfl, rfl⟩)
    (fun _ _ => ⟨rfl, rfl, rfl⟩) (fun _ => rfl) (fun _ => ⟨rfl, rfl, rfl⟩)

/-- Adapter 4's term at an entry. -/
theorem adapter4_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (i : S8192x4096.Idx) :
    val_main_v83 (F := Ideal) x0 x3 x4 x5 x6 i
      = if x6 (ix1 (i 0)) = BitVec.ofNat 32 (4 : Fin 8).val then Cert.Adapter.up x0 x3 x4 x5 (4 : Fin 8) (i 0) (i 1) else 0 := by
  rw [val_main_v83_apply, val_main_call4_v1_apply, val_main_v82_apply, val_main_v81_apply, val_main_v80_apply, val_main_c_7_apply,
    val_main_call4_v2_apply, val_main_call4_v0_apply, val_main_cst_8_apply, val_main_v79_apply]
  simp only [val_main_v75_apply, val_main_v72_apply, val_main_v71_apply, val_main_v70_apply, val_main_v69_apply,
    val_main_v74_apply, val_main_v73_apply, val_main_v78_apply, val_main_v77_apply, val_main_v76_apply, Ideal.mulf_def]
  exact adapter_term 4 x0 x3 x4 x5 x6 (i 0) (i 1) _ _ _ _ _ _ rfl rfl (fun _ _ => ⟨rfl, rfl⟩)
    (fun _ _ => ⟨rfl, rfl, rfl⟩) (fun _ => rfl) (fun _ => ⟨rfl, rfl, rfl⟩)

/-- Adapter 5's term at an entry. -/
theorem adapter5_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (i : S8192x4096.Idx) :
    val_main_v99 (F := Ideal) x0 x3 x4 x5 x6 i
      = if x6 (ix1 (i 0)) = BitVec.ofNat 32 (5 : Fin 8).val then Cert.Adapter.up x0 x3 x4 x5 (5 : Fin 8) (i 0) (i 1) else 0 := by
  rw [val_main_v99_apply, val_main_call5_v1_apply, val_main_v98_apply, val_main_v97_apply, val_main_v96_apply, val_main_c_9_apply,
    val_main_call5_v2_apply, val_main_call5_v0_apply, val_main_cst_10_apply, val_main_v95_apply]
  simp only [val_main_v91_apply, val_main_v88_apply, val_main_v87_apply, val_main_v86_apply, val_main_v85_apply,
    val_main_v90_apply, val_main_v89_apply, val_main_v94_apply, val_main_v93_apply, val_main_v92_apply, Ideal.mulf_def]
  exact adapter_term 5 x0 x3 x4 x5 x6 (i 0) (i 1) _ _ _ _ _ _ rfl rfl (fun _ _ => ⟨rfl, rfl⟩)
    (fun _ _ => ⟨rfl, rfl, rfl⟩) (fun _ => rfl) (fun _ => ⟨rfl, rfl, rfl⟩)

/-- Adapter 6's term at an entry. -/
theorem adapter6_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (i : S8192x4096.Idx) :
    val_main_v115 (F := Ideal) x0 x3 x4 x5 x6 i
      = if x6 (ix1 (i 0)) = BitVec.ofNat 32 (6 : Fin 8).val then Cert.Adapter.up x0 x3 x4 x5 (6 : Fin 8) (i 0) (i 1) else 0 := by
  rw [val_main_v115_apply, val_main_call6_v1_apply, val_main_v114_apply, val_main_v113_apply, val_main_v112_apply, val_main_c_11_apply,
    val_main_call6_v2_apply, val_main_call6_v0_apply, val_main_cst_12_apply, val_main_v111_apply]
  simp only [val_main_v107_apply, val_main_v104_apply, val_main_v103_apply, val_main_v102_apply, val_main_v101_apply,
    val_main_v106_apply, val_main_v105_apply, val_main_v110_apply, val_main_v109_apply, val_main_v108_apply, Ideal.mulf_def]
  exact adapter_term 6 x0 x3 x4 x5 x6 (i 0) (i 1) _ _ _ _ _ _ rfl rfl (fun _ _ => ⟨rfl, rfl⟩)
    (fun _ _ => ⟨rfl, rfl, rfl⟩) (fun _ => rfl) (fun _ => ⟨rfl, rfl, rfl⟩)

/-- Adapter 7's term at an entry. -/
theorem adapter7_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (i : S8192x4096.Idx) :
    val_main_v131 (F := Ideal) x0 x3 x4 x5 x6 i
      = if x6 (ix1 (i 0)) = BitVec.ofNat 32 (7 : Fin 8).val then Cert.Adapter.up x0 x3 x4 x5 (7 : Fin 8) (i 0) (i 1) else 0 := by
  rw [val_main_v131_apply, val_main_call7_v1_apply, val_main_v130_apply, val_main_v129_apply, val_main_v128_apply, val_main_c_13_apply,
    val_main_call7_v2_apply, val_main_call7_v0_apply, val_main_cst_14_apply, val_main_v127_apply]
  simp only [val_main_v123_apply, val_main_v120_apply, val_main_v119_apply, val_main_v118_apply, val_main_v117_apply,
    val_main_v122_apply, val_main_v121_apply, val_main_v126_apply, val_main_v125_apply, val_main_v124_apply, Ideal.mulf_def]
  exact adapter_term 7 x0 x3 x4 x5 x6 (i 0) (i 1) _ _ _ _ _ _ rfl rfl (fun _ _ => ⟨rfl, rfl⟩)
    (fun _ _ => ⟨rfl, rfl, rfl⟩) (fun _ => rfl) (fun _ => ⟨rfl, rfl, rfl⟩)

end Cert.ReferenceIdeal.RefValue

end
-- ==== Proof.RefValue.lean ====
/-
  The reference's result is the specification.  Its dense part is one contraction over 4096 plus the bias broadcast
  along the rows; its correction starts from zero and adds the eight adapter terms one after the other, which is the
  sum over the adapters; the result is dense part + correction.
-/
import proofs.«176441_j8899172237474_1_alg».proof.Proof.Gen.ReferenceIdeal.Read
import proofs.«176441_j8899172237474_1_alg».proof.Proof.AdapterSpec
import proofs.«176441_j8899172237474_1_alg».proof.Proof.RefAdapters
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.SL.Sem

namespace Cert.ReferenceIdeal.RefValue

open Cert.ReferenceIdeal Cert.ReferenceIdeal.Read Idealize.ShloMosaic.ValueIdx

/-- The dense part at an entry. -/
theorem dense_apply (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (i : S8192x4096.Idx) :
    val_main_v3 (F := Ideal) x0 x1 x2 i = Cert.Adapter.base x0 x1 x2 (i 0) (i 1) := by
  -- the contraction reads row `i 0` of the left operand and column `i 1` of the right one
  have hl : ∀ k : Fin 4096, lidx_main_v0 i k = ix2 (i 0) k := fun k =>
    funext fun a => Fin.ext (by match a with | ⟨0, _⟩ => rfl | ⟨1, _⟩ => rfl)
  have hr : ∀ k : Fin 4096, ridx_main_v0 i k = ix2 k (i 1) := fun k =>
    funext fun a => Fin.ext (by match a with | ⟨0, _⟩ => rfl | ⟨1, _⟩ => rfl)
  -- the two broadcasts read the bias at the column
  have hb : idx_main_v1 (idx_main_v2 i) = ix1 (i 1) :=
    funext fun a => Fin.ext (by match a with | ⟨0, _⟩ => rfl)
  rw [val_main_v3_apply, val_main_v0_apply, val_main_v2_apply, val_main_v1_apply]
  simp only [hl, hr, hb, Ideal.addf_def]
  rfl

/-- The correction at an entry: zero plus the eight adapter terms, in order. -/
theorem correction_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (i : S8192x4096.Idx) :
    val_main_v132 (F := Ideal) x0 x3 x4 x5 x6 i = Cert.Adapter.routed x0 x3 x4 x5 x6 (i 0) (i 1) := by
  -- the chain of additions, outermost first, down to the zero constant; then each adapter's term
  rw [val_main_v132_apply, val_main_v116_apply, val_main_v100_apply, val_main_v84_apply, val_main_v68_apply,
    val_main_v52_apply, val_main_v36_apply, val_main_v20_apply, val_main_v4_apply, val_main_cst_apply,
    adapter0_apply, adapter1_apply, adapter2_apply, adapter3_apply, adapter4_apply, adapter5_apply,
    adapter6_apply, adapter7_apply]
  simp only [Ideal.addf_def, Ideal.ofBits_def, Ideal.ofBits_zero_f32, zero_add]
  -- the sum over the eight adapters, written out, is that left-nested chain
  unfold Cert.Adapter.routed
  rw [Fin.sum_univ_eight]

/-- The reference's result array is the specification's. -/
theorem reference_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S8x16x4096, .f32⟩ : BufTy).Contents (Elt Ideal))
    (x4 : (⟨S8x4096x16, .f32⟩ : BufTy).Contents (Elt Ideal)) (x5 : (⟨S8192, .f32⟩ : BufTy).Contents (Elt Ideal))
    (x6 : (⟨S8192, .i32⟩ : BufTy).Contents (Elt Ideal)) :
    val_main_v133 (F := Ideal) x0 x1 x2 x3 x4 x5 x6 = Cert.Adapter.result x0 x1 x2 x3 x4 x5 x6 := by
  funext i
  rw [val_main_v133_apply, dense_apply, correction_apply]
  rfl

end Cert.ReferenceIdeal.RefValue

end
-- ==== Proof.lean ====
/-
  The certificate's assembly.  The kernel computes, tile by tile over an 8 × 4 × 4 grid,
      out = (x · w + bias) + Σ over 128 stacked adapter columns of ((x · a_stacked) · scal · [column's adapter = token]) · b_stacked,
  accumulating the two products over four blocks of the contraction axis; the reference computes
      out = (x · w + bias) + (0 + Σ over the 8 adapters of where(token = e, ((x · a_eᵀ) · scal) · b_eᵀ, 0)).
  On the extended reals both are one function of the arguments (Proof/AdapterSpec.lean's `result`): the kernel's side is
  Proof/KernelValue.lean's `run`, the reference's side Proof/RefValue.lean's `reference_eq` over its generated run.
  The three frames are the generated ones (the reference's is its run with the result dropped); the idealization
  rewrote nothing, so `preserves` states nothing.
-/
import proofs.«176441_j8899172237474_1_alg».proof.Defs
import proofs.«176441_j8899172237474_1_alg».proof.Proof.Gen.Kernel
import proofs.«176441_j8899172237474_1_alg».proof.Proof.Gen.Kernel.Skeleton
import proofs.«176441_j8899172237474_1_alg».proof.Proof.Gen.Kernel.Launch
import proofs.«176441_j8899172237474_1_alg».proof.Proof.Gen.Kernel.Points
import proofs.«176441_j8899172237474_1_alg».proof.Proof.Gen.Kernel.Frame
import proofs.«176441_j8899172237474_1_alg».proof.Proof.Gen.KernelIdeal
import proofs.«176441_j8899172237474_1_alg».proof.Proof.Gen.KernelIdeal.Skeleton
import proofs.«176441_j8899172237474_1_alg».proof.Proof.Gen.KernelIdeal.Launch
import proofs.«176441_j8899172237474_1_alg».proof.Proof.Gen.KernelIdeal.Points
import proofs.«176441_j8899172237474_1_alg».proof.Proof.Gen.KernelIdeal.Frame
import proofs.«176441_j8899172237474_1_alg».proof.Proof.Gen.ReferenceIdeal
import proofs.«176441_j8899172237474_1_alg».proof.Proof.Gen.Pre_finite_inputs
import proofs.«176441_j8899172237474_1_alg».proof.Proof.Gen.KernelIdeal.Value
import proofs.«176441_j8899172237474_1_alg».proof.Proof.Gen.ReferenceIdeal.Run
import proofs.«176441_j8899172237474_1_alg».proof.Proof.Gen.ReferenceIdeal.Read
import proofs.«176441_j8899172237474_1_alg».proof.Proof.AdapterSpec
import proofs.«176441_j8899172237474_1_alg».proof.Proof.KernelValue
import proofs.«176441_j8899172237474_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's, from memories that agree on the arguments,
    are the same function of those arguments. -/
theorem algebraic : Cert.algebraic_KernelIdeal_ReferenceIdeal := by
  intro m ρ m' ρ' _ hagree
  refine ⟨fun c => Cert.Adapter.result (Cert.KernelIdeal.KValue.argX m c) (Cert.KernelIdeal.KValue.argW m c)
    (Cert.KernelIdeal.KValue.argBias m c) (Cert.KernelIdeal.KValue.argA m c) (Cert.KernelIdeal.KValue.argB m c)
    (Cert.KernelIdeal.KValue.argScal m c) (Cert.KernelIdeal.KValue.argTok m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v133_eq, Cert.ReferenceIdeal.RefValue.reference_eq]
  obtain ⟨a0, a1, a2, a3, a4, a5, a6⟩ := hagree c
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
